-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024x1 : Shape := ⟨4, ![8, 1024, 1024, 1]⟩
abbrev S8x1024x1024x1x3 : Shape := ⟨5, ![8, 1024, 1024, 1, 3]⟩
abbrev S8x20908x3x3 : Shape := ⟨4, ![8, 20908, 3, 3]⟩
abbrev S_ : Shape := ⟨0, ![]⟩

class Facts : Prop where
  bcast_S_S8x1024x1024x1x3 : S_.BroadcastsInDim S8x1024x1024x1x3 (![] : Fin 0 → Fin S8x1024x1024x1x3.rank)
  reducesTo_S8x1024x1024x1x3_S_d0_1_2_3_4 : S8x1024x1024x1x3.ReducesTo [0, 1, 2, 3, 4] S_
  h_S_ : 0 < S_.numel
  bcast_S_S8x20908x3x3 : S_.BroadcastsInDim S8x20908x3x3 (![] : Fin 0 → Fin S8x20908x3x3.rank)
  reducesTo_S8x20908x3x3_S_d0_1_2_3 : S8x20908x3x3.ReducesTo [0, 1, 2, 3] S_
  bcast_S_S8x1024x1024x1 : S_.BroadcastsInDim S8x1024x1024x1 (![] : Fin 0 → Fin S8x1024x1024x1.rank)
  reducesTo_S8x1024x1024x1_S_d0_1_2_3 : S8x1024x1024x1.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S8x1024x1024x1 32) (main_arg1 : FVec F S8x1024x1024x1x3 .f32) (main_arg2 : FVec F S8x20908x3x3 .f32) : IVec S_ 1 :=
  let main_v0 : FVec F S8x1024x1024x1x3 .f32 := Host.absf main_arg1
  let main_cst : FVec F S_ .f32 := constant S_ .f32 0x7F800000#32
  let main_v1 : FVec F S8x1024x1024x1x3 .f32 := broadcastInDim S8x1024x1024x1x3 ![] bcast_S_S8x1024x1024x1x3 main_cst
  let main_v2 : IVec S8x1024x1024x1x3 1 := cmpf .olt main_v0 main_v1
  let main_c : IVec S_ 1 := constantI S_ 1 1#1
  let main_v3 : IVec S_ 1 := (fun x v => Host.reduce IntOp.andi x v reducesTo_S8x1024x1024x1x3_S_d0_1_2_3_4 h_S_) main_v2 main_c
  let main_v4 : FVec F S8x20908x3x3 .f32 := Host.absf main_arg2
  let main_cst_0 : FVec F S_ .f32 := constant S_ .f32 0x7F800000#32
  let main_v5 : FVec F S8x20908x3x3 .f32 := broadcastInDim S8x20908x3x3 ![] bcast_S_S8x20908x3x3 main_cst_0
  let main_v6 : IVec S8x20908x3x3 1 := cmpf .olt main_v4 main_v5
  let main_c_1 : IVec S_ 1 := constantI S_ 1 1#1
  let main_v7 : IVec S_ 1 := (fun x v => Host.reduce IntOp.andi x v reducesTo_S8x20908x3x3_S_d0_1_2_3 h_S_) main_v6 main_c_1
  let main_v8 : IVec S_ 1 := andi main_v3 main_v7
  let main_c_2 : IVec S_ 32 := constantI S_ 32 4294800032#32
  let main_v9 : IVec S8x1024x1024x1 32 := broadcastInDim S8x1024x1024x1 ![] bcast_S_S8x1024x1024x1 main_c_2
  let main_v10 : IVec S8x1024x1024x1 1 := cmpi .sge main_arg0 main_v9
  let main_c_3 : IVec S_ 1 := constantI S_ 1 1#1
  let main_v11 : IVec S_ 1 := (fun x v => Host.reduce IntOp.andi x v reducesTo_S8x1024x1024x1_S_d0_1_2_3 h_S_) main_v10 main_c_3
  let main_v12 : IVec S_ 1 := andi main_v8 main_v11
  let main_c_4 : IVec S_ 32 := constantI S_ 32 167264#32
  let main_v13 : IVec S8x1024x1024x1 32 := broadcastInDim S8x1024x1024x1 ![] bcast_S_S8x1024x1024x1 main_c_4
  let main_v14 : IVec S8x1024x1024x1 1 := cmpi .slt main_arg0 main_v13
  let main_c_5 : IVec S_ 1 := constantI S_ 1 1#1
  let main_v15 : IVec S_ 1 := (fun x v => Host.reduce IntOp.andi x v reducesTo_S8x1024x1024x1_S_d0_1_2_3 h_S_) main_v14 main_c_5
  fn_part1 (F := F) main_v12 main_v15
-- ==== Kernel.lean ====
abbrev S8x1024x1024x1 : Shape := ⟨4, ![8, 1024, 1024, 1]⟩
abbrev S8x1024x1024x1x3 : Shape := ⟨5, ![8, 1024, 1024, 1, 3]⟩
abbrev S8x20908x3x3 : Shape := ⟨4, ![8, 20908, 3, 3]⟩
abbrev S8x1024x1024 : Shape := ⟨3, ![8, 1024, 1024]⟩
abbrev S_ : Shape := ⟨0, ![]⟩
abbrev S8x1024x1024x3 : Shape := ⟨4, ![8, 1024, 1024, 3]⟩
abbrev S167264x3x3 : Shape := ⟨3, ![167264, 3, 3]⟩
abbrev S3x3x167264 : Shape := ⟨3, ![3, 3, 167264]⟩
abbrev S1 : Shape := ⟨1, ![1]⟩
abbrev S1x1x1x1 : Shape := ⟨4, ![1, 1, 1, 1]⟩
abbrev S3x3x8x1024x1024 : Shape := ⟨5, ![3, 3, 8, 1024, 1024]⟩
abbrev S3x8x1024x1024 : Shape := ⟨4, ![3, 8, 1024, 1024]⟩
abbrev S1x8x1024x1024 : Shape := ⟨4, ![1, 8, 1024, 1024]⟩
abbrev S8x3x1024x1024 : Shape := ⟨4, ![8, 3, 1024, 1024]⟩
abbrev S3x3x1x128x1024 : Shape := ⟨5, ![3, 3, 1, 128, 1024]⟩
abbrev S3x1x128x1024 : Shape := ⟨4, ![3, 1, 128, 1024]⟩
abbrev S1x3x128x1024 : Shape := ⟨4, ![1, 3, 128, 1024]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1x3x1x128x1024 : Shape := ⟨5, ![1, 3, 1, 128, 1024]⟩
abbrev S3x128x1024 : Shape := ⟨3, ![3, 128, 1024]⟩

abbrev nBuf : Space → Nat
  | .hbm => 45
  | .vmem => 6
  | .smem => 0
  | _ => 0

abbrev bufTy : (tb : Table) → Fin (tcTables nBuf tb) → BufTy
  | .hbm, ⟨0, _⟩ => ⟨S8x1024x1024x1, .i32⟩
  | .hbm, ⟨1, _⟩ => ⟨S8x1024x1024x1x3, .f32⟩
  | .hbm, ⟨2, _⟩ => ⟨S8x20908x3x3, .f32⟩
  | .hbm, ⟨3, _⟩ => ⟨S8x1024x1024, .i32⟩
  | .hbm, ⟨4, _⟩ => ⟨S_, .i32⟩
  | .hbm, ⟨5, _⟩ => ⟨S8x1024x1024, .i32⟩
  | .hbm, ⟨6, _⟩ => ⟨S8x1024x1024, .i1⟩
  | .hbm, ⟨7, _⟩ => ⟨S_, .i32⟩
  | .hbm, ⟨8, _⟩ => ⟨S_, .i32⟩
  | .hbm, ⟨9, _⟩ => ⟨S8x1024x1024, .i32⟩
  | .hbm, ⟨10, _⟩ => ⟨S8x1024x1024, .i32⟩
  | .hbm, ⟨11, _⟩ => ⟨S8x1024x1024x3, .f32⟩
  | .hbm, ⟨12, _⟩ => ⟨S167264x3x3, .f32⟩
  | .hbm, ⟨13, _⟩ => ⟨S3x3x167264, .f32⟩
  | .hbm, ⟨14, _⟩ => ⟨S_, .i32⟩
  | .hbm, ⟨15, _⟩ => ⟨S8x1024x1024, .i32⟩
  | .hbm, ⟨16, _⟩ => ⟨S8x1024x1024, .i1⟩
  | .hbm, ⟨17, _⟩ => ⟨S_, .i32⟩
  | .hbm, ⟨18, _⟩ => ⟨S8x1024x1024, .i32⟩
  | .hbm, ⟨19, _⟩ => ⟨S8x1024x1024, .i32⟩
  | .hbm, ⟨20, _⟩ => ⟨S8x1024x1024, .i32⟩
  | .hbm, ⟨21, _⟩ => ⟨S8x1024x1024x1, .i32⟩
  | .hbm, ⟨22, _⟩ => ⟨S1, .i32⟩
  | .hbm, ⟨23, _⟩ => ⟨S_, .i32⟩
  | .hbm, ⟨24, _⟩ => ⟨S8x1024x1024x1, .i32⟩
  | .hbm, ⟨25, _⟩ => ⟨S8x1024x1024x1, .i1⟩
  | .hbm, ⟨26, _⟩ => ⟨S1x1x1x1, .i32⟩
  | .hbm, ⟨27, _⟩ => ⟨S8x1024x1024x1, .i32⟩
  | .hbm, ⟨28, _⟩ => ⟨S8x1024x1024x1, .i1⟩
  | .hbm, ⟨29, _⟩ => ⟨S8x1024x1024x1, .i1⟩
  | .hbm, ⟨30, _⟩ => ⟨S_, .i1⟩
  | .hbm, ⟨31, _⟩ => ⟨S8x1024x1024, .i1⟩
  | .hbm, ⟨32, _⟩ => ⟨S3x3x8x1024x1024, .f32⟩
  | .hbm, ⟨33, _⟩ => ⟨S3x3x8x1024x1024, .i1⟩
  | .hbm, ⟨34, _⟩ => ⟨S_, .f32⟩
  | .hbm, ⟨35, _⟩ => ⟨S3x3x8x1024x1024, .f32⟩
  | .hbm, ⟨36, _⟩ => ⟨S3x3x8x1024x1024, .f32⟩
  | .hbm, ⟨37, _⟩ => ⟨S3x8x1024x1024, .f32⟩
  | .hbm, ⟨38, _⟩ => ⟨S1x8x1024x1024, .i1⟩
  | .hbm, ⟨39, _⟩ => ⟨S_, .f32⟩
  | .hbm, ⟨40, _⟩ => ⟨S_, .f32⟩
  | .hbm, ⟨41, _⟩ => ⟨S3x8x1024x1024, .i1⟩
  | .hbm, ⟨42, _⟩ => ⟨S3x8x1024x1024, .f32⟩
  | .hbm, ⟨43, _⟩ => ⟨S3x8x1024x1024, .f32⟩
  | .hbm, ⟨44, _⟩ => ⟨S8x3x1024x1024, .f32⟩
  | .local _ .vmem, ⟨0, _⟩ => ⟨S3x3x1x128x1024, .f32⟩
  | .local _ .vmem, ⟨1, _⟩ => ⟨S3x3x1x128x1024, .f32⟩
  | .local _ .vmem, ⟨2, _⟩ => ⟨S3x1x128x1024, .f32⟩
  | .local _ .vmem, ⟨3, _⟩ => ⟨S3x1x128x1024, .f32⟩
  | .local _ .vmem, ⟨4, _⟩ => ⟨S1x3x128x1024, .f32⟩
  | .local _ .vmem, ⟨5, _⟩ => ⟨S1x3x128x1024, .f32⟩
  | _, _ => ⟨S8x1024x1024x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v10 : Ref sig .tc := ⟨.hbm, 43, rfl⟩
abbrev main_v11 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S3x3x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x1024x1024x1_S8x1024x1024 : S8x1024x1024x1.ShapeCasts S8x1024x1024
  bcast_S_S8x1024x1024 : S_.BroadcastsInDim S8x1024x1024 (![] : Fin 0 → Fin S8x1024x1024.rank)
  shapeCasts_S8x1024x1024x1x3_S8x1024x1024x3 : S8x1024x1024x1x3.ShapeCasts S8x1024x1024x3
  shapeCasts_S8x20908x3x3_S167264x3x3 : S8x20908x3x3.ShapeCasts S167264x3x3
  transposes_S167264x3x3_S3x3x167264_1_2_0 : S167264x3x3.Transposes [1, 2, 0] S3x3x167264
  bcast_S8x1024x1024_S8x1024x1024x1_0_1_2 : S8x1024x1024.BroadcastsInDim S8x1024x1024x1 (![0, 1, 2] : Fin 3 → Fin S8x1024x1024x1.rank)
  bcast_S_S8x1024x1024x1 : S_.BroadcastsInDim S8x1024x1024x1 (![] : Fin 0 → Fin S8x1024x1024x1.rank)
  bcast_S1_S1x1x1x1_3 : S1.BroadcastsInDim S1x1x1x1 (![3] : Fin 1 → Fin S1x1x1x1.rank)
  bcast_S1x1x1x1_S8x1024x1024x1_0_1_2_3 : S1x1x1x1.BroadcastsInDim S8x1024x1024x1 (![0, 1, 2, 3] : Fin 4 → Fin S8x1024x1024x1.rank)
  reducesTo_S8x1024x1024x1_S8x1024x1024_d3 : S8x1024x1024x1.ReducesTo [3] S8x1024x1024
  h_S_ : 0 < S_.numel
  bcast_S8x1024x1024_S3x3x8x1024x1024_2_3_4 : S8x1024x1024.BroadcastsInDim S3x3x8x1024x1024 (![2, 3, 4] : Fin 3 → Fin S3x3x8x1024x1024.rank)
  bcast_S_S3x3x8x1024x1024 : S_.BroadcastsInDim S3x3x8x1024x1024 (![] : Fin 0 → Fin S3x3x8x1024x1024.rank)
  transposes_S8x1024x1024x3_S3x8x1024x1024_3_0_1_2 : S8x1024x1024x3.Transposes [3, 0, 1, 2] S3x8x1024x1024
  bcast_S8x1024x1024_S1x8x1024x1024_1_2_3 : S8x1024x1024.BroadcastsInDim S1x8x1024x1024 (![1, 2, 3] : Fin 3 → Fin S1x8x1024x1024.rank)
  bcast_S1x8x1024x1024_S3x8x1024x1024_0_1_2_3 : S1x8x1024x1024.BroadcastsInDim S3x8x1024x1024 (![0, 1, 2, 3] : Fin 4 → Fin S3x8x1024x1024.rank)
  bcast_S_S3x8x1024x1024 : S_.BroadcastsInDim S3x8x1024x1024 (![] : Fin 0 → Fin S3x8x1024x1024.rank)
  inb_S3x1x128x1024_S1x1x128x1024_0_0_0_0 : ∀ a, (![0, 0, 0, 0] : Fin 4 → Nat) a + S1x1x128x1024.size a ≤ S3x1x128x1024.size a
  h_S1x1x128x1024 : 0 < S1x1x128x1024.numel
  shapeCasts_S1x1x128x1024_S128x1024 : S1x1x128x1024.ShapeCasts S128x1024
  shapeCasts_S128x1024_S1x128x1024 : S128x1024.ShapeCasts S1x128x1024
  inb_S3x1x128x1024_S1x1x128x1024_1_0_0_0 : ∀ a, (![1, 0, 0, 0] : Fin 4 → Nat) a + S1x1x128x1024.size a ≤ S3x1x128x1024.size a
  inb_S3x1x128x1024_S1x1x128x1024_2_0_0_0 : ∀ a, (![2, 0, 0, 0] : Fin 4 → Nat) a + S1x1x128x1024.size a ≤ S3x1x128x1024.size a
  inb_S3x3x1x128x1024_S1x3x1x128x1024_0_0_0_0_0 : ∀ a, (![0, 0, 0, 0, 0] : Fin 5 → Nat) a + S1x3x1x128x1024.size a ≤ S3x3x1x128x1024.size a
  h_S1x3x1x128x1024 : 0 < S1x3x1x128x1024.numel
  shapeCasts_S1x3x1x128x1024_S3x128x1024 : S1x3x1x128x1024.ShapeCasts S3x128x1024
  broadcasts_S1x128x1024_S3x128x1024 : S1x128x1024.Broadcasts S3x128x1024
  inb_S3x3x1x128x1024_S1x3x1x128x1024_1_0_0_0_0 : ∀ a, (![1, 0, 0, 0, 0] : Fin 5 → Nat) a + S1x3x1x128x1024.size a ≤ S3x3x1x128x1024.size a
  inb_S3x3x1x128x1024_S1x3x1x128x1024_2_0_0_0_0 : ∀ a, (![2, 0, 0, 0, 0] : Fin 5 → Nat) a + S1x3x1x128x1024.size a ≤ S3x3x1x128x1024.size a
  inb_S1x3x128x1024_S1x3x128x1024_0_0_0_0 : ∀ a, (![0, 0, 0, 0] : Fin 4 → Nat) a + S1x3x128x1024.size a ≤ S1x3x128x1024.size a
  h_S1x3x128x1024 : 0 < S1x3x128x1024.numel
  shapeCasts_S1x3x128x1024_S3x128x1024 : S1x3x128x1024.ShapeCasts S3x128x1024
  shapeCasts_S3x128x1024_S1x3x128x1024 : S3x128x1024.ShapeCasts S1x3x128x1024
  gather_S3x3x167264_S8x1024x1024x1_S3x3x8x1024x1024_01_2_n_n_2_3_331_wf : GatherDims.WF S3x3x167264 S8x1024x1024x1 S3x3x8x1024x1024 [0, 1] [2] [] [2] [] 3 ![3, 3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x3x1x128x1024.size a ≤ S3x3x8x1024x1024.size a
  hwx0_0 : ∀ i : grid0.Coords, EltTy.bits .f32 = 32 ∨ (Rect.block (s := S3x3x8x1024x1024) S3x3x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1x128x1024.size a ≤ S3x8x1024x1024.size a
  hwx0_1 : ∀ i : grid0.Coords, EltTy.bits .f32 = 32 ∨ (Rect.block (s := S3x8x1024x1024) S3x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128x1024.size a ≤ S8x3x1024x1024.size a
  hwx0_2 : ∀ i : grid0.Coords, EltTy.bits .f32 = 32 ∨ (Rect.block (s := S8x3x1024x1024) S1x3x128x1024.size (cc0_transform_2 i) (hinb0_2 i)).WholeWords (EltTy.packing .f32)

variable [Facts₀]

def gather_S3x3x167264_S8x1024x1024x1_S3x3x8x1024x1024_01_2_n_n_2_3_331 : GatherDims S3x3x167264 S8x1024x1024x1 S3x3x8x1024x1024 where
  offsetDims := [0, 1]
  collapsedSliceDims := [2]
  operandBatchingDims := []
  startIndicesBatchingDims := []
  startIndexMap := [2]
  indexVectorDim := 3
  sliceSizes := ![3, 3, 1]
  wf := gather_S3x3x167264_S8x1024x1024x1_S3x3x8x1024x1024_01_2_n_n_2_3_331_wf

abbrev win0_0 : Pipeline.Window sig grid0 :=
  Pipeline.Window.ofSpec (Memref.whole main_v7) S3x3x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x3x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x1024x1 : Shape := ⟨4, ![8, 1024, 1024, 1]⟩
abbrev S8x1024x1024x1x3 : Shape := ⟨5, ![8, 1024, 1024, 1, 3]⟩
abbrev S8x20908x3x3 : Shape := ⟨4, ![8, 20908, 3, 3]⟩
abbrev S167264x3x3 : Shape := ⟨3, ![167264, 3, 3]⟩
abbrev S_ : Shape := ⟨0, ![]⟩
abbrev S8x1024x1024x1x1 : Shape := ⟨5, ![8, 1024, 1024, 1, 1]⟩
abbrev S8x1024x1024x1x3x3 : Shape := ⟨6, ![8, 1024, 1024, 1, 3, 3]⟩
abbrev S8x1024x1024x1x3x1 : Shape := ⟨6, ![8, 1024, 1024, 1, 3, 1]⟩
abbrev S8x1024x1024x3 : Shape := ⟨4, ![8, 1024, 1024, 3]⟩
abbrev S8x3x1024x1024 : Shape := ⟨4, ![8, 3, 1024, 1024]⟩
abbrev S8x1024x1024 : Shape := ⟨3, ![8, 1024, 1024]⟩
abbrev S8x1x1024x1024 : Shape := ⟨4, ![8, 1, 1024, 1024]⟩
abbrev S8x4x1024x1024 : Shape := ⟨4, ![8, 4, 1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1024x1, .i32⟩
  | .hbm, ⟨1, _⟩ => ⟨S8x1024x1024x1x3, .f32⟩
  | .hbm, ⟨2, _⟩ => ⟨S8x20908x3x3, .f32⟩
  | .hbm, ⟨3, _⟩ => ⟨S167264x3x3, .f32⟩
  | .hbm, ⟨4, _⟩ => ⟨S_, .i32⟩
  | .hbm, ⟨5, _⟩ => ⟨S8x1024x1024x1, .i32⟩
  | .hbm, ⟨6, _⟩ => ⟨S8x1024x1024x1, .i1⟩
  | .hbm, ⟨7, _⟩ => ⟨S_, .i32⟩
  | .hbm, ⟨8, _⟩ => ⟨S_, .i32⟩
  | .hbm, ⟨9, _⟩ => ⟨S8x1024x1024x1, .i32⟩
  | .hbm, ⟨10, _⟩ => ⟨S8x1024x1024x1, .i32⟩
  | .hbm, ⟨11, _⟩ => ⟨S_, .i32⟩
  | .hbm, ⟨12, _⟩ => ⟨S8x1024x1024x1, .i32⟩
  | .hbm, ⟨13, _⟩ => ⟨S8x1024x1024x1, .i1⟩
  | .hbm, ⟨14, _⟩ => ⟨S_, .i32⟩
  | .hbm, ⟨15, _⟩ => ⟨S8x1024x1024x1, .i32⟩
  | .hbm, ⟨16, _⟩ => ⟨S8x1024x1024x1, .i32⟩
  | .hbm, ⟨17, _⟩ => ⟨S8x1024x1024x1, .i32⟩
  | .hbm, ⟨18, _⟩ => ⟨S8x1024x1024x1x1, .i32⟩
  | .hbm, ⟨19, _⟩ => ⟨S8x1024x1024x1x3x3, .f32⟩
  | .hbm, ⟨20, _⟩ => ⟨S8x1024x1024x1x3x1, .f32⟩
  | .hbm, ⟨21, _⟩ => ⟨S8x1024x1024x1x3x3, .f32⟩
  | .hbm, ⟨22, _⟩ => ⟨S8x1024x1024x1x3x3, .f32⟩
  | .hbm, ⟨23, _⟩ => ⟨S_, .f32⟩
  | .hbm, ⟨24, _⟩ => ⟨S8x1024x1024x1x3, .f32⟩
  | .hbm, ⟨25, _⟩ => ⟨S8x1024x1024x1x1, .i1⟩
  | .hbm, ⟨26, _⟩ => ⟨S_, .f32⟩
  | .hbm, ⟨27, _⟩ => ⟨S8x1024x1024x1x3, .i1⟩
  | .hbm, ⟨28, _⟩ => ⟨S8x1024x1024x1x3, .f32⟩
  | .hbm, ⟨29, _⟩ => ⟨S8x1024x1024x1x3, .f32⟩
  | .hbm, ⟨30, _⟩ => ⟨S_, .i32⟩
  | .hbm, ⟨31, _⟩ => ⟨S8x1024x1024x1, .i32⟩
  | .hbm, ⟨32, _⟩ => ⟨S8x1024x1024x1, .i1⟩
  | .hbm, ⟨33, _⟩ => ⟨S8x1024x1024x1, .f32⟩
  | .hbm, ⟨34, _⟩ => ⟨S8x1024x1024x3, .f32⟩
  | .hbm, ⟨35, _⟩ => ⟨S8x3x1024x1024, .f32⟩
  | .hbm, ⟨36, _⟩ => ⟨S8x1024x1024, .f32⟩
  | .hbm, ⟨37, _⟩ => ⟨S8x1x1024x1024, .f32⟩
  | .hbm, ⟨38, _⟩ => ⟨S8x4x1024x1024, .f32⟩
  | .hbm, ⟨39, _⟩ => ⟨S8x3x1024x1024, .f32⟩
  | _, _ => ⟨S8x1024x1024x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  shapeCasts_S8x20908x3x3_S167264x3x3 : S8x20908x3x3.ShapeCasts S167264x3x3
  bcast_S_S8x1024x1024x1 : S_.BroadcastsInDim S8x1024x1024x1 (![] : Fin 0 → Fin S8x1024x1024x1.rank)
  bcast_S8x1024x1024x1_S8x1024x1024x1x1_0_1_2_3 : S8x1024x1024x1.BroadcastsInDim S8x1024x1024x1x1 (![0, 1, 2, 3] : Fin 4 → Fin S8x1024x1024x1x1.rank)
  bcast_S8x1024x1024x1x3_S8x1024x1024x1x3x1_0_1_2_3_4 : S8x1024x1024x1x3.BroadcastsInDim S8x1024x1024x1x3x1 (![0, 1, 2, 3, 4] : Fin 5 → Fin S8x1024x1024x1x3x1.rank)
  bcast_S8x1024x1024x1x3x1_S8x1024x1024x1x3x3_0_1_2_3_4_5 : S8x1024x1024x1x3x1.BroadcastsInDim S8x1024x1024x1x3x3 (![0, 1, 2, 3, 4, 5] : Fin 6 → Fin S8x1024x1024x1x3x3.rank)
  reducesTo_S8x1024x1024x1x3x3_S8x1024x1024x1x3_d4 : S8x1024x1024x1x3x3.ReducesTo [4] S8x1024x1024x1x3
  h_S_ : 0 < S_.numel
  bcast_S8x1024x1024x1x1_S8x1024x1024x1x3_0_1_2_3_4 : S8x1024x1024x1x1.BroadcastsInDim S8x1024x1024x1x3 (![0, 1, 2, 3, 4] : Fin 5 → Fin S8x1024x1024x1x3.rank)
  bcast_S_S8x1024x1024x1x3 : S_.BroadcastsInDim S8x1024x1024x1x3 (![] : Fin 0 → Fin S8x1024x1024x1x3.rank)
  shapeCasts_S8x1024x1024x1x3_S8x1024x1024x3 : S8x1024x1024x1x3.ShapeCasts S8x1024x1024x3
  transposes_S8x1024x1024x3_S8x3x1024x1024_0_3_1_2 : S8x1024x1024x3.Transposes [0, 3, 1, 2] S8x3x1024x1024
  shapeCasts_S8x1024x1024x1_S8x1024x1024 : S8x1024x1024x1.ShapeCasts S8x1024x1024
  bcast_S8x1024x1024_S8x1x1024x1024_0_2_3 : S8x1024x1024.BroadcastsInDim S8x1x1024x1024 (![0, 2, 3] : Fin 3 → Fin S8x1x1024x1024.rank)
  concatenates_S8x3x1024x1024_S8x1x1024x1024_S8x4x1024x1024_d1 : Shape.Concatenates [S8x3x1024x1024, S8x1x1024x1024] S8x4x1024x1024 1
  slices_S8x4x1024x1024_S8x3x1024x1024_0_0_0_0 : S8x4x1024x1024.Slices ![0, 0, 0, 0] S8x3x1024x1024
  gather_S167264x3x3_S8x1024x1024x1x1_S8x1024x1024x1x3x3_45_0_n_n_0_4_133_wf : GatherDims.WF S167264x3x3 S8x1024x1024x1x1 S8x1024x1024x1x3x3 [4, 5] [0] [] [0] [] 4 ![1, 3, 3]

variable [Facts₀]

def gather_S167264x3x3_S8x1024x1024x1x1_S8x1024x1024x1x3x3_45_0_n_n_0_4_133 : GatherDims S167264x3x3 S8x1024x1024x1x1 S8x1024x1024x1x3x3 where
  offsetDims := [4, 5]
  collapsedSliceDims := [0]
  operandBatchingDims := []
  startIndicesBatchingDims := []
  startIndexMap := [0]
  indexVectorDim := 4
  sliceSizes := ![1, 3, 3]
  wf := gather_S167264x3x3_S8x1024x1024x1x1_S8x1024x1024x1x3x3_45_0_n_n_0_4_133_wf

class Facts : Prop extends Facts₀ where

variable [Facts]
-- ==== Proof.PreRange.lean ====
/-
  The precondition read at one pixel: every face number lies in `[-167264, 167264)`.

  The printed precondition is a conjunction of four all-reduces by `and`; the last two are the comparisons of every face
  number with the constants `-167264` (signed ≥) and `167264` (signed <). If the whole is 1, each of those reduces is 1,
  and a reduce by `and` that is 1 has every element 1.
-/
import proofs.«416982_j65996467470980_3_alg».proof.Pre_finite_inputs
import Idealize.ShloMosaic.PureOps.Reduce
import Idealize.ShloMosaic.Lib.ReduceAll
import Idealize.ShloMosaic.Lib.ValueIdx

noncomputable section

namespace Cert.Raster.PreRange

open Idealize.ShloMosaic Idealize.ShloMosaic.ValueIdx Cert.Pre_finite_inputs

variable {F : FTy → Type} [FloatOps F] [Cert.Pre_finite_inputs.Facts]

/-- The rank-0 shape has exactly one index (the empty tuple). -/
instance : Subsingleton S_.Idx := ⟨fun a b => funext fun d => d.elim0⟩

/-- Under the precondition every face number is at least `-167264` and below `167264`, as signed words. -/
theorem range_of_pre (p : IVec S8x1024x1024x1 32) (b : FVec F S8x1024x1024x1x3 .f32) (a : FVec F S8x20908x3x3 .f32)
    (h : Cert.Pre_finite_inputs.fn (F := F) p b a = fun _ => 1#1) (i : S8x1024x1024x1.Idx) :
    IntOp.cmpi .sge (p i) 4294800032#32 = 1#1 ∧ IntOp.cmpi .slt (p i) 167264#32 = 1#1 := by
  -- The scalar result has a single index; read the hypothesis there.
  have h0 := congrFun h ValueIdx.ix0
  dsimp only [Cert.Pre_finite_inputs.fn, Cert.Pre_finite_inputs.fn_part1] at h0
  -- The result is ((float part ∧ lower-bound reduce) ∧ upper-bound reduce): peel off the two integer reduces.
  obtain ⟨h12, hhi⟩ := IntOp.andi_eq_one.1 h0
  obtain ⟨_, hlo⟩ := IntOp.andi_eq_one.1 h12
  -- A reduce by `and` over all axes that is 1 has a 1 at every index; the comparison array at `i` compares `p i`
  -- with the broadcast constant, which reads the constant everywhere.
  exact ⟨Host.reduce_andi_all _ _ _ _ _ hlo i, Host.reduce_andi_all _ _ _ _ _ hhi i⟩

end Cert.Raster.PreRange

end
-- ==== Proof.LibRowGather.lean ====
/-
  A row gather read at an index, and an all-ones mask folded by `and`.

  `x[idx]` for a matrix `x : [N, C]` and a column of row numbers `idx : [E, 1]` is StableHLO's gather with
  offset axis 1, collapsed axis 0, start index map [0], index vector axis 1 and slices of one whole row.
  Its element `(e, f)` is `x` at row `min (toNat (toInt idx[e, 0])) (N - 1)` and column `f`: the row number
  is read signed, clamped into the matrix, and does not depend on the column; the column passes through.
  So a function applied row by row commutes with the gather, whatever the row numbers are.

  A reduce by `and` from the constant 1 over words that are all 1 is 1 (the converse of reading an
  element out of a reduce that is 1).
-/
import Idealize.ShloMosaic.PureOps
import Idealize.ShloMosaic.PureOps.Reduce
import Idealize.ShloMosaic.Lib.ValueIdx
import Idealize.ShloMosaic.Lib.Affine

noncomputable section

namespace Idealize.ShloMosaic.RowGather

open Idealize.ShloMosaic Idealize.ShloMosaic.ValueIdx

variable {α : Type}

/-- The dimension numbers of a row gather: operand `[N, C]`, start indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for result row `e`: the start index read signed and clamped into `[0, N - 1]`. -/
def rowOf {N E w : Nat} (hN : 0 < N) (idx : IVec ⟨2, ![E, 1]⟩ w) (e : Fin E) : Fin N :=
  ⟨min (idx (ix2 e (0 : Fin 1))).toInt.toNat (N - 1), by omega⟩

/-- The row gather at `(e, f)` is the operand at `(rowOf e, f)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowDims N C E wf) x idx (ix2 e f) = x (ix2 (rowOf hN idx e) f) := by
  unfold Host.gather
  congr 1
  funext a
  refine Fin.ext ?_
  match a with
  | ⟨0, _⟩ =>
    show (rowDims N C E wf).start (ix2 e f) idx 0 + (rowDims N C E wf).batchCoord (ix2 e f) 0
      + (rowDims N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e f) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e f) idx 1 + (rowDims N C E wf).batchCoord (ix2 e f) 1
      + (rowDims N C E wf).offCoord (ix2 e f) 1 = _
    have hs : (rowDims N C E wf).start (ix2 e f) idx 1 = 0 := by
      unfold GatherDims.start
      rw [dif_neg (fun h : (1 : Fin 2) ∈ (rowDims N C E wf).startIndexMap =>
        absurd (congrArg Fin.val (List.mem_singleton.mp h)) Nat.one_ne_zero)]
    rw [GatherDims.batchCoord_eq_zero _ _ _ List.not_mem_nil, hs]
    simp only [Nat.zero_add, Nat.add_zero]
    unfold GatherDims.offCoord
    rw [dif_pos ((GatherDims.mem_sKept _ _).mpr
      ⟨fun h : (1 : Fin 2) ∈ (rowDims N C E wf).collapsedSliceDims =>
        absurd (congrArg Fin.val (List.mem_singleton.mp h)) Nat.one_ne_zero, List.not_mem_nil⟩)]
    rfl

/-- A left fold by `and` from 1 over words that are all 1 is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    refine foldl_andi_of_all_one f l _ ?_ (fun n hn => hl n (List.mem_cons_of_mem _ hn))
    show IntOp.andi init (f a) = 1#1
    rw [h, hl a (List.mem_cons_self ..)]; rfl

/-- A `stablehlo.reduce` by `and` from 1 of an array of 1s is 1 at every result index. -/
theorem reduce_andi_of_all_one {s t u : Shape} {axes : List (Fin s.rank)} (x : s.Idx → BitVec 1)
    (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact foldl_andi_of_all_one x _ _ hinit (fun n _ => hx n)

/-! ## A row number wrapped once

`jnp` indexing adds the extent to a negative row number before it gathers. For a signed word in `[-n, n)`
the wrapped word is in `[0, n - 1]`: the range test a filling `take` makes on it passes. -/

/-- Words in `[-n, n)` wrap into `[0, n - 1]`; `lo`, `hi`, `m` are the printed constants `-n`, `n`, `n - 1`. -/
theorem wrap_in_range (n : Int) (hn : 0 < n ∧ n < 2 ^ 30) (s lo hi m : BitVec 32)
    (hlo : lo.toInt = -n) (hhi : hi.toInt = n) (hm : m.toInt = n - 1)
    (hge : IntOp.cmpi .sge s lo = 1#1) (hlt : IntOp.cmpi .slt s hi = 1#1) :
    IntOp.cmpi .sge (Scalar.select (IntOp.cmpi .slt s 0#32) (IntOp.addi s hi) s) 0#32 = 1#1
      ∧ IntOp.cmpi .sle (Scalar.select (IntOp.cmpi .slt s 0#32) (IntOp.addi s hi) s) m = 1#1 := by
  rw [IntOp.cmpi_sge, hlo] at hge
  rw [IntOp.cmpi_slt, hhi] at hlt
  have h0 : (0#32 : BitVec 32).toInt = 0 := by decide
  by_cases hneg : s.toInt < 0
  · have hc : IntOp.cmpi .slt s 0#32 = 1#1 := IntOp.cmpi_slt.mpr (by rw [h0]; exact hneg)
    have hsum : (IntOp.addi s hi).toInt = s.toInt + n := by
      rw [IntOp.addi, BitVec.toInt_add, hhi]
      exact Int.bmod_eq_of_le (by omega) (by omega)
    rw [hc, show Scalar.select 1#1 (IntOp.addi s hi) s = IntOp.addi s hi from if_pos rfl,
      IntOp.cmpi_sge, IntOp.cmpi_sle, h0, hm, hsum]
    omega
  · have hc : ¬IntOp.cmpi .slt s 0#32 = 1#1 := fun h => hneg (by have := IntOp.cmpi_slt.mp h; rwa [h0] at this)
    rw [show Scalar.select (IntOp.cmpi .slt s 0#32) (IntOp.addi s hi) s = s from if_neg hc,
      IntOp.cmpi_sge, IntOp.cmpi_sle, h0, hm]
    omega

end Idealize.ShloMosaic.RowGather

end
-- ==== Proof.GatherRead.lean ====
/-
  The two gathers of the rasteriser, read at an index.

  Rows first: `A[idx]` for a table `A : [167264, 3, 3]` and row numbers `idx : [8, 1024, 1024, 1, 1]` is StableHLO's gather
  with offset axes 4 and 5, collapsed axis 0, start index map [0], index vector axis 4 and slices of one whole
  row: element `(n, h, w, k, v, d)` is `A` at row `min (toNat (toInt idx[n, h, w, k, 0])) 167263` and `(v, d)`.
  Rows last: the same take along the LAST axis of the transposed table `[3, 3, 167264]` by `idx : [8, 1024, 1024, 1]`
  (offset axes 0 and 1, collapsed axis 2, start index map [2], index vector axis 3): element `(v, d, n, h, w)` is the
  table at `(v, d)` and row `min (toNat (toInt idx[n, h, w, 0])) 167263`.
-/
import Idealize.ShloMosaic.PureOps
import Idealize.ShloMosaic.Lib.ValueIdx

noncomputable section

namespace Cert.Raster.Gather

open Idealize.ShloMosaic Idealize.ShloMosaic.ValueIdx

variable {α : Type}

abbrev STab : Shape := ⟨3, ![167264, 3, 3]⟩
abbrev STabT : Shape := ⟨3, ![3, 3, 167264]⟩
abbrev SIdxR : Shape := ⟨5, ![8, 1024, 1024, 1, 1]⟩
abbrev SGatR : Shape := ⟨6, ![8, 1024, 1024, 1, 3, 3]⟩
abbrev SIdxK : Shape := ⟨4, ![8, 1024, 1024, 1]⟩
abbrev SGatK : Shape := ⟨5, ![3, 3, 8, 1024, 1024]⟩

/-- The dimension numbers of the row gather (rows first). -/
abbrev rowsDims (wf : GatherDims.WF STab SIdxR SGatR [4, 5] [0] [] [0] [] 4 ![1, 3, 3]) : GatherDims STab SIdxR SGatR where
  offsetDims := [4, 5]
  collapsedSliceDims := [0]
  operandBatchingDims := []
  startIndicesBatchingDims := []
  startIndexMap := [0]
  indexVectorDim := 4
  sliceSizes := ![1, 3, 3]
  wf := wf

/-- The dimension numbers of the take along the last axis (rows last). -/
abbrev lastDims (wf : GatherDims.WF STabT SIdxK SGatK [0, 1] [2] [] [2] [] 3 ![3, 3, 1]) : GatherDims STabT SIdxK SGatK where
  offsetDims := [0, 1]
  collapsedSliceDims := [2]
  operandBatchingDims := []
  startIndicesBatchingDims := []
  startIndexMap := [2]
  indexVectorDim := 3
  sliceSizes := ![3, 3, 1]
  wf := wf

/-- The row a start-index word names: read signed, clamped into `[0, 167263]`. -/
def clampRow {w : Nat} (s : BitVec w) : Fin 167264 := ⟨min s.toInt.toNat 167263, by omega⟩

/-- Rows first, at `j = (n, h, w, k, v, d)`: the table at the clamped row `idx[n, h, w, k, 0]` names and at `(v, d)`. -/
theorem gather_rows_apply {w : Nat} (wf : GatherDims.WF STab SIdxR SGatR [4, 5] [0] [] [0] [] 4 ![1, 3, 3])
    (x : STab.Idx → α) (idx : IVec SIdxR w) (j : SGatR.Idx) :
    Host.gather (rowsDims wf) x idx j = x (ix3 (clampRow (idx (ix5 (j 0) (j 1) (j 2) (j 3) (0 : Fin 1)))) (j 4) (j 5)) := by
  unfold Host.gather
  congr 1
  funext a
  refine Fin.ext ?_
  match a with
  | ⟨0, _⟩ =>
    -- the row axis: collapsed and named by the start index map, so only the clamped start is left
    show (rowsDims wf).start j idx 0 + (rowsDims wf).batchCoord j 0 + (rowsDims wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims wf).startIndexMap from List.mem_singleton.mpr rfl)]
    -- the start index is read at the four batch coordinates of `j` and component 0
    have hsi : (rowsDims wf).siIdx j ⟨List.idxOf (0 : Fin 3) (rowsDims wf).startIndexMap,
        List.idxOf_lt_length_iff.2 (List.mem_singleton.mpr rfl)⟩ = ix5 (j 0) (j 1) (j 2) (j 3) (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨1, _⟩ =>
    -- the first axis inside a row: no start, no batching; the offset coordinate is `j`'s on result axis 4
    show (rowsDims wf).start j idx 1 + (rowsDims wf).batchCoord j 1 + (rowsDims wf).offCoord j 1 = _
    have hs : (rowsDims wf).start j idx 1 = 0 := by
      unfold GatherDims.start
      rw [dif_neg (fun h : (1 : Fin 3) ∈ (rowsDims wf).startIndexMap =>
        absurd (congrArg Fin.val (List.mem_singleton.mp h)) Nat.one_ne_zero)]
    rw [GatherDims.batchCoord_eq_zero _ _ _ List.not_mem_nil, hs]
    simp only [Nat.zero_add, Nat.add_zero]
    unfold GatherDims.offCoord
    rw [dif_pos ((GatherDims.mem_sKept _ _).mpr
      ⟨fun h : (1 : Fin 3) ∈ (rowsDims wf).collapsedSliceDims =>
        absurd (congrArg Fin.val (List.mem_singleton.mp h)) Nat.one_ne_zero, List.not_mem_nil⟩)]
    rfl
  | ⟨2, _⟩ =>
    -- the second axis inside a row: the same, with result axis 5
    show (rowsDims wf).start j idx 2 + (rowsDims wf).batchCoord j 2 + (rowsDims wf).offCoord j 2 = _
    have hs : (rowsDims wf).start j idx 2 = 0 := by
      unfold GatherDims.start
      rw [dif_neg (fun h : (2 : Fin 3) ∈ (rowsDims wf).startIndexMap =>
        absurd (congrArg Fin.val (List.mem_singleton.mp h)) (by decide))]
    rw [GatherDims.batchCoord_eq_zero _ _ _ List.not_mem_nil, hs]
    simp only [Nat.zero_add, Nat.add_zero]
    unfold GatherDims.offCoord
    rw [dif_pos ((GatherDims.mem_sKept _ _).mpr
      ⟨fun h : (2 : Fin 3) ∈ (rowsDims wf).collapsedSliceDims =>
        absurd (congrArg Fin.val (List.mem_singleton.mp h)) (by decide), List.not_mem_nil⟩)]
    rfl

/-- Rows last, at `j = (v, d, n, h, w)`: the table at `(v, d)` and at the clamped row `idx[n, h, w, 0]` names. -/
theorem gather_last_apply {w : Nat} (wf : GatherDims.WF STabT SIdxK SGatK [0, 1] [2] [] [2] [] 3 ![3, 3, 1])
    (x : STabT.Idx → α) (idx : IVec SIdxK w) (j : SGatK.Idx) :
    Host.gather (lastDims wf) x idx j = x (ix3 (j 0) (j 1) (clampRow (idx (ix4 (j 2) (j 3) (j 4) (0 : Fin 1))))) := by
  unfold Host.gather
  congr 1
  funext a
  refine Fin.ext ?_
  match a with
  | ⟨0, _⟩ =>
    -- the first axis inside a row: no start, no batching; the offset coordinate is `j`'s on result axis 0
    show (lastDims wf).start j idx 0 + (lastDims wf).batchCoord j 0 + (lastDims wf).offCoord j 0 = _
    have hs : (lastDims wf).start j idx 0 = 0 := by
      unfold GatherDims.start
      rw [dif_neg (fun h : (0 : Fin 3) ∈ (lastDims wf).startIndexMap =>
        absurd (congrArg Fin.val (List.mem_singleton.mp h)) (by decide))]
    rw [GatherDims.batchCoord_eq_zero _ _ _ List.not_mem_nil, hs]
    simp only [Nat.zero_add, Nat.add_zero]
    unfold GatherDims.offCoord
    rw [dif_pos ((GatherDims.mem_sKept _ _).mpr
      ⟨fun h : (0 : Fin 3) ∈ (lastDims wf).collapsedSliceDims =>
        absurd (congrArg Fin.val (List.mem_singleton.mp h)) (by decide), List.not_mem_nil⟩)]
    rfl
  | ⟨1, _⟩ =>
    -- the second axis inside a row: the same, with result axis 1
    show (lastDims wf).start j idx 1 + (lastDims wf).batchCoord j 1 + (lastDims wf).offCoord j 1 = _
    have hs : (lastDims wf).start j idx 1 = 0 := by
      unfold GatherDims.start
      rw [dif_neg (fun h : (1 : Fin 3) ∈ (lastDims wf).startIndexMap =>
        absurd (congrArg Fin.val (List.mem_singleton.mp h)) (by decide))]
    rw [GatherDims.batchCoord_eq_zero _ _ _ List.not_mem_nil, hs]
    simp only [Nat.zero_add, Nat.add_zero]
    unfold GatherDims.offCoord
    rw [dif_pos ((GatherDims.mem_sKept _ _).mpr
      ⟨fun h : (1 : Fin 3) ∈ (lastDims wf).collapsedSliceDims =>
        absurd (congrArg Fin.val (List.mem_singleton.mp h)) (by decide), List.not_mem_nil⟩)]
    rfl
  | ⟨2, _⟩ =>
    -- the row axis, last here: collapsed and named by the start index map, so only the clamped start is left
    show (lastDims wf).start j idx 2 + (lastDims wf).batchCoord j 2 + (lastDims wf).offCoord j 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims wf).startIndexMap from List.mem_singleton.mpr rfl)]
    -- the start index is read at the three batch coordinates of `j` (result axes 2, 3, 4) and component 0
    have hsi : (lastDims wf).siIdx j ⟨List.idxOf (2 : Fin 3) (lastDims wf).startIndexMap,
        List.idxOf_lt_length_iff.2 (List.mem_singleton.mpr rfl)⟩ = ix4 (j 2) (j 3) (j 4) (0 : Fin 1) := by
      funext b; refine Fin.ext ?_
      match b with
      | ⟨0, _⟩ => rfl
      | ⟨1, _⟩ => rfl
      | ⟨2, _⟩ => rfl
      | ⟨3, _⟩ => rfl
    rw [hsi]
    rfl

end Cert.Raster.Gather

end
-- ==== Proof.Face.lean ====
/-
  The rasteriser's arithmetic, stated without either program.

  A pixel carries a packed face number `q` (a signed 32-bit word). The word `-1` marks a background pixel and is
  sent to row 0 (`faceWord`); a negative row number counts from the end of the table, so the extent 167264 is added
  to it once (`wrapWord`); the row actually read is that word, read signed and clamped into the table (`rowOf`).
  The image value at `(n, d, h, w)` is 0 on a background pixel and otherwise the sum over the three vertices `v` of the
  barycentric weight `b[n, h, w, 0, v]` times the table entry `A[row, v, d]` (`image`).

  For a face number in `[-167264, 167264)` the wrapped word lies in `[0, 167263]` (`wrap_ok`), so a range test on it
  passes and the clamp does nothing.
-/
import Idealize.ShloMosaic.PureOps
import Idealize.ShloMosaic.PureOps.Ideal
import Idealize.ShloMosaic.Lib.ValueIdx
import proofs.«416982_j65996467470980_3_alg».proof.Proof.LibRowGather
import proofs.«416982_j65996467470980_3_alg».proof.Proof.GatherRead

noncomputable section

open scoped BigOperators

namespace Cert.Raster

open Idealize.ShloMosaic Idealize.ShloMosaic.ValueIdx

abbrev SPix : Shape := ⟨4, ![8, 1024, 1024, 1]⟩
abbrev SBary : Shape := ⟨5, ![8, 1024, 1024, 1, 3]⟩
abbrev STab : Shape := ⟨3, ![167264, 3, 3]⟩
abbrev SOut : Shape := ⟨4, ![8, 3, 1024, 1024]⟩

/-- The background word `-1` is replaced by row 0; every other word is kept. -/
def faceWord (q : BitVec 32) : BitVec 32 := Scalar.select (IntOp.cmpi .eq q 4294967295#32) 0#32 q

/-- A negative row number counts from the end: the extent is added to it once. -/
def wrapWord (s : BitVec 32) : BitVec 32 := Scalar.select (IntOp.cmpi .slt s 0#32) (IntOp.addi s 167264#32) s

/-- The table row a pixel with face number `q` reads: the wrapped word, signed, clamped into `[0, 167263]`. -/
def rowOf (q : BitVec 32) : Fin 167264 := Gather.clampRow (wrapWord (faceWord q))

/-- A face number in `[-167264, 167264)` wraps into `[0, 167263]`: both halves of the range test hold. -/
theorem wrap_ok (q : BitVec 32) (hge : IntOp.cmpi .sge q 4294800032#32 = 1#1) (hlt : IntOp.cmpi .slt q 167264#32 = 1#1) :
    IntOp.cmpi .sge (wrapWord (faceWord q)) 0#32 = 1#1 ∧ IntOp.cmpi .sle (wrapWord (faceWord q)) 167263#32 = 1#1 := by
  have key : IntOp.cmpi .sge (faceWord q) 4294800032#32 = 1#1 ∧ IntOp.cmpi .slt (faceWord q) 167264#32 = 1#1 := by
    unfold faceWord
    by_cases hq : IntOp.cmpi .eq q 4294967295#32 = 1#1
    · rw [hq, select_one]; exact ⟨by decide, by decide⟩
    · rw [eq_zero_of_ne_one hq, select_zero]; exact ⟨hge, hlt⟩
  exact Idealize.ShloMosaic.RowGather.wrap_in_range 167264 (by norm_num) (faceWord q) 4294800032#32 167264#32 167263#32
    (by decide) (by decide) (by decide) key.1 key.2

/-- The image as one function of the face numbers `p`, the weights `b` and the flattened attribute table `A`. -/
def image (p : IVec SPix 32) (b : FVec Ideal SBary .f32) (A : FVec Ideal STab .f32) : FVec Ideal SOut .f32 :=
  fun j => Scalar.select (IntOp.cmpi .eq (p (ix4 (j 0) (j 2) (j 3) 0)) 4294967295#32) (0 : EReal)
    ((0 : EReal) + ∑ v : Fin 3, b (ix5 (j 0) (j 2) (j 3) 0 v) * A (ix3 (rowOf (p (ix4 (j 0) (j 2) (j 3) 0))) v (j 1)))

end Cert.Raster

end
-- ==== Proof.RefValue.lean ====
/-
  The reference's result, read at an index.

  Its last operation keeps the first three channels of a four-channel image, whose first three channels are the
  transposed `[n, h, w, d]` array of pixel values: `0` where the face number is `-1`, and otherwise the sum over the three
  vertices of weight times attribute, the attribute row gathered from the flattened table at the face number
  (background → row 0, negative numbers wrapped once, the gather clamping into the table). That is `Cert.Raster.image`.
-/
import proofs.«416982_j65996467470980_3_alg».proof.Proof.Gen.ReferenceIdeal.Read
import proofs.«416982_j65996467470980_3_alg».proof.Proof.Face
import proofs.«416982_j65996467470980_3_alg».proof.Proof.GatherRead
import Idealize.ShloMosaic.Lib.Pipeline.Value
import Idealize.ShloMosaic.Lib.ValueIdx
import Idealize.ShloMosaic.Lib.IdealHost

noncomputable section

open scoped BigOperators

namespace Cert.Raster.RefValue

open Cert.ReferenceIdeal Cert.ReferenceIdeal.Gen Cert.ReferenceIdeal.Read
open Idealize.ShloMosaic Idealize.ShloMosaic.ValueIdx Cert.Raster

theorem ref_row (x0 : (⟨S8x1024x1024x1, .i32⟩ : BufTy).Contents (Elt Ideal)) (n : Fin 8) (h w : Fin 1024) (k e : Fin 1) :
    val_main_v9 (F := Ideal) x0 (ix5 n h w k e) = wrapWord (faceWord (x0 (ix4 n h w 0))) := by
  rw [val_main_v9_apply, val_main_v8_apply, val_main_v5_apply, val_main_v7_apply, val_main_v3_apply, val_main_v2_apply,
    val_main_v1_apply, val_main_c_apply, val_main_call0_v1_apply, val_main_call0_v0_apply, val_main_c_0_apply,
    val_main_v4_apply, val_main_c_1_apply, val_main_v6_apply, val_main_c_2_apply]
  have hi : idx_main_v9 (ix5 n h w k e) = ix4 n h w 0 := by
    funext a; refine Fin.ext ?_; match a with | ⟨0, _⟩ => rfl | ⟨1, _⟩ => rfl | ⟨2, _⟩ => rfl | ⟨3, _⟩ => rfl
  rw [hi]
  rfl

set_option maxHeartbeats 1000000 in
theorem ref_image_apply (x0 : (⟨S8x1024x1024x1, .i32⟩ : BufTy).Contents (Elt Ideal))
    (x1 : (⟨S8x1024x1024x1x3, .f32⟩ : BufTy).Contents (Elt Ideal)) (x2 : (⟨S8x20908x3x3, .f32⟩ : BufTy).Contents (Elt Ideal))
    (n : Fin 8) (d : Fin 3) (h w : Fin 1024) :
    val_main_v25 (F := Ideal) x0 x1 x2 (ix4 n d h w)
      = Scalar.select (IntOp.cmpi .eq (x0 (ix4 n h w 0)) 4294967295#32) (0 : EReal)
        ((0 : EReal) + ∑ v : Fin 3, x1 (ix5 n h w 0 v) * val_main_v0 (F := Ideal) x2 (ix3 (rowOf (x0 (ix4 n h w 0))) v d)) := by
  have hn := n.isLt
  have hd := d.isLt
  have hh := h.isLt
  have hw := w.isLt
  rw [val_main_v25_apply]
  have hcat : val_main_v24 (F := Ideal) x0 x1 x2 (idx_main_v25 (ix4 n d h w)) = val_main_v21 (F := Ideal) x0 x1 x2 (ix4 n d h w) := by
    unfold val_main_v24
    exact concatenate_pair_apply_left (s₁ := S8x3x1024x1024) _ _ _ _ (idx_main_v25 (ix4 n d h w)) rfl (ix4 n d h w)
      (fun b => by match b with | ⟨0, _⟩ => rfl | ⟨1, _⟩ => rfl | ⟨2, _⟩ => rfl | ⟨3, _⟩ => rfl)
  have e21 : idx_main_v21 (ix4 n d h w) = ix4 n h w d := by
    funext a; refine Fin.ext ?_; match a with | ⟨0, _⟩ => rfl | ⟨1, _⟩ => rfl | ⟨2, _⟩ => rfl | ⟨3, _⟩ => rfl
  have e20 : idx_main_v20 (ix4 n h w d) = ix5 n h w 0 d := by
    funext a; refine Fin.ext ?_
    match a with
    | ⟨0, _⟩ => show (((n.val * 1024 + h.val) * 1024 + w.val) * 3 + d.val) / 3145728 = n.val; omega
    | ⟨1, _⟩ => show (((n.val * 1024 + h.val) * 1024 + w.val) * 3 + d.val) / 3072 % 1024 = h.val; omega
    | ⟨2, _⟩ => show (((n.val * 1024 + h.val) * 1024 + w.val) * 3 + d.val) / 3 % 1024 = w.val; omega
    | ⟨3, _⟩ => rfl
    | ⟨4, _⟩ => show (((n.val * 1024 + h.val) * 1024 + w.val) * 3 + d.val) % 3 = d.val; omega
  rw [hcat, val_main_v21_apply, e21, val_main_v20_apply, e20, val_main_v16_apply, val_main_call1_v0_apply, val_main_v15_apply,
    val_main_v2_apply, val_main_v1_apply, val_main_c_apply, val_main_call1_v1_apply, val_main_cst_3_apply,
    val_main_v14_apply, val_main_cst_apply]
  have hidx : idx_main_v15 (idx_main_call1_v0 (ix5 n h w 0 d)) = ix4 n h w 0 := by
    funext a; refine Fin.ext ?_; match a with | ⟨0, _⟩ => rfl | ⟨1, _⟩ => rfl | ⟨2, _⟩ => rfl | ⟨3, _⟩ => rfl
  have hterm : ∀ v : Fin 3, val_main_v13 (F := Ideal) x0 x1 x2 (idx_main_v14 (ix5 n h w 0 d) v)
      = x1 (ix5 n h w 0 v) * val_main_v0 (F := Ideal) x2 (ix3 (rowOf (x0 (ix4 n h w 0))) v d) := by
    intro v
    rw [val_main_v13_apply, val_main_v12_apply, val_main_v11_apply]
    have hb : idx_main_v11 (idx_main_v12 (idx_main_v14 (ix5 n h w 0 d) v)) = ix5 n h w 0 v := by
      funext a; refine Fin.ext ?_; match a with | ⟨0, _⟩ => rfl | ⟨1, _⟩ => rfl | ⟨2, _⟩ => rfl | ⟨3, _⟩ => rfl | ⟨4, _⟩ => rfl
    rw [hb]
    have hg : val_main_v10 (F := Ideal) x0 x2 (idx_main_v14 (ix5 n h w 0 d) v)
        = val_main_v0 (F := Ideal) x2 (ix3 (rowOf (x0 (ix4 n h w 0))) v d) := by
      unfold val_main_v10
      refine (Gather.gather_rows_apply gather_S167264x3x3_S8x1024x1024x1x1_S8x1024x1024x1x3x3_45_0_n_n_0_4_133_wf _ _ _).trans ?_
      show val_main_v0 (F := Ideal) x2 (ix3 (Gather.clampRow (val_main_v9 (F := Ideal) x0 (ix5 n h w 0 0))) v d) = _
      rw [ref_row]
      rfl
    rw [hg]
    rfl
  rw [hidx, Finset.sum_congr rfl (fun v _ => hterm v)]
  show Scalar.select _ (Ideal.ofBits .f32 0x00000000#32) (Ideal.ofBits .f32 0x00000000#32 + _) = _
  rw [Ideal.ofBits_zero_f32]

/-- The reference's result is the image of its arguments, the attribute table flattened to rows. -/
theorem ref_image (x0 : (⟨S8x1024x1024x1, .i32⟩ : BufTy).Contents (Elt Ideal))
    (x1 : (⟨S8x1024x1024x1x3, .f32⟩ : BufTy).Contents (Elt Ideal)) (x2 : (⟨S8x20908x3x3, .f32⟩ : BufTy).Contents (Elt Ideal)) :
    val_main_v25 (F := Ideal) x0 x1 x2 = Cert.Raster.image x0 x1 (val_main_v0 (F := Ideal) x2) := by
  funext j
  obtain ⟨n, d, h, w, rfl⟩ : ∃ (n : Fin 8) (d : Fin 3) (h w : Fin 1024), j = ix4 n d h w := ⟨j 0, j 1, j 2, j 3, eq_ix4 j⟩
  rw [ref_image_apply]
  rfl

end Cert.Raster.RefValue

end
-- ==== Proof.KernelHost.lean ====
/-
  The two arrays the kernel's region is launched on, as functions of the arguments.

  Before the region the host flattens the face numbers, masks the background (`-1` → row 0), wraps negative row numbers
  once, and takes the rows of the transposed attribute table along its last axis — a FILLING take: where the wrapped row
  number is outside `[0, 167263]` the result is the fill value, elsewhere the table at the clamped row — and it moves the
  vertex axis of the weights to the front and zeroes the weights of background pixels. The operations fall into three
  stretches — before the take, the take, after it — and each stretch is a function of the buffers the one before left
  (`after_append`); then each array is read at an index. For a face number in `[-167264, 167264)` the range test passes (`Cert.Raster.wrap_ok`), so
  the take is the plain row read.
-/
import proofs.«416982_j65996467470980_3_alg».proof.Proof.Gen.KernelIdeal.Frame
import proofs.«416982_j65996467470980_3_alg».proof.Proof.Face
import proofs.«416982_j65996467470980_3_alg».proof.Proof.GatherRead
import Idealize.ShloMosaic.Lib.Pipeline.Value
import Idealize.ShloMosaic.Lib.StableHlo.Run
import Idealize.ShloMosaic.Lib.ValueIdx
import Idealize.ShloMosaic.Lib.IdealHost

-- one theorem at a time: each stretch of host operations is a long term
set_option Elab.async false

noncomputable section

namespace Cert.Raster.KernelHost

open Cert.KernelIdeal Cert.KernelIdeal.Gen
open Idealize.ShloMosaic Idealize.ShloMosaic.TcCoe Idealize.SL.Sem Idealize.ShloMosaic.StableHlo Idealize.ShloMosaic.ValueIdx Cert.Raster

variable {F : FTy → Type} [FloatOps F]

/-! ## The stages -/

/-- The face numbers with the unit axis dropped. -/
def faces (p : IVec S8x1024x1024x1 32) : IVec S8x1024x1024 32 := shapeCast _ p shapeCasts_S8x1024x1024x1_S8x1024x1024
/-- The background mask: the face number is `-1`. -/
def background (p : IVec S8x1024x1024x1 32) : IVec S8x1024x1024 1 :=
  cmpi .eq (faces p) (broadcastInDim S8x1024x1024 ![] bcast_S_S8x1024x1024 (constantI S_ 32 4294967295#32))
/-- Background pixels read row 0. -/
def face0 (p : IVec S8x1024x1024x1 32) : IVec S8x1024x1024 32 :=
  select (background p) (broadcastInDim S8x1024x1024 ![] bcast_S_S8x1024x1024 (id (constantI S_ 32 0#32))) (faces p)
/-- The attribute table flattened to rows and laid out rows last. -/
def tableT (a : FVec F S8x20908x3x3 .f32) : FVec F S3x3x167264 .f32 :=
  transpose S3x3x167264 [1, 2, 0] (shapeCast _ a shapeCasts_S8x20908x3x3_S167264x3x3) transposes_S167264x3x3_S3x3x167264_1_2_0
/-- The weights with the unit axis dropped. -/
def bary4 (b : FVec F S8x1024x1024x1x3 .f32) : FVec F S8x1024x1024x3 .f32 :=
  shapeCast _ b shapeCasts_S8x1024x1024x1x3_S8x1024x1024x3

/-- A negative row number has the extent added once. -/
def wrapped (s : IVec S8x1024x1024 32) : IVec S8x1024x1024 32 :=
  select (cmpi .slt s (broadcastInDim S8x1024x1024 ![] bcast_S_S8x1024x1024 (constantI S_ 32 0#32)))
    (addi s (broadcastInDim S8x1024x1024 ![] bcast_S_S8x1024x1024 (constantI S_ 32 167264#32))) s
/-- The start indices of the take: the wrapped row numbers with a unit axis appended. -/
def starts (s : IVec S8x1024x1024 32) : IVec S8x1024x1024x1 32 :=
  broadcastInDim S8x1024x1024x1 ![0, 1, 2] bcast_S8x1024x1024_S8x1024x1024x1_0_1_2 (wrapped s)
/-- The range test of the filling take: `0 ≤ start ≤ 167263`. -/
def inRange (s : IVec S8x1024x1024 32) : IVec S8x1024x1024x1 1 :=
  andi (cmpi .sge (starts s) (broadcastInDim S8x1024x1024x1 ![] bcast_S_S8x1024x1024x1 (constantI S_ 32 0#32)))
    (cmpi .sle (starts s) (broadcastInDim S8x1024x1024x1 ![0, 1, 2, 3] bcast_S1x1x1x1_S8x1024x1024x1_0_1_2_3
      (broadcastInDim S1x1x1x1 ![3] bcast_S1_S1x1x1x1_3 (constantI S1 32 167263#32))))
/-- The test folded over the unit axis. -/
def allIn (s : IVec S8x1024x1024 32) : IVec S8x1024x1024 1 :=
  Host.reduce IntOp.andi (inRange s) (constantI S_ 1 1#1) reducesTo_S8x1024x1024x1_S8x1024x1024_d3 h_S_
/-- The filling take of the table `T` along its last axis at the row numbers `s`. -/
def takeFill (s : IVec S8x1024x1024 32) (T : FVec F S3x3x167264 .f32) : FVec F S3x3x8x1024x1024 .f32 :=
  select (broadcastInDim S3x3x8x1024x1024 ![2, 3, 4] bcast_S8x1024x1024_S3x3x8x1024x1024_2_3_4 (allIn s))
    (Host.gather gather_S3x3x167264_S8x1024x1024x1_S3x3x8x1024x1024_01_2_n_n_2_3_331 T (starts s))
    (broadcastInDim S3x3x8x1024x1024 ![] bcast_S_S3x3x8x1024x1024 (constant S_ .f32 0x7FC00000#32))
/-- The weights, vertex axis first, zeroed where the mask `g` is set. -/
def maskWeights (g : IVec S8x1024x1024 1) (bt : FVec F S8x1024x1024x3 .f32) : FVec F S3x8x1024x1024 .f32 :=
  select (broadcastInDim S3x8x1024x1024 ![0, 1, 2, 3] bcast_S1x8x1024x1024_S3x8x1024x1024_0_1_2_3
      (broadcastInDim S1x8x1024x1024 ![1, 2, 3] bcast_S8x1024x1024_S1x8x1024x1024_1_2_3 g))
    (broadcastInDim S3x8x1024x1024 ![] bcast_S_S3x8x1024x1024 (id (constant S_ .f32 0x00000000#32)))
    (transpose S3x8x1024x1024 [3, 0, 1, 2] bt transposes_S8x1024x1024x3_S3x8x1024x1024_3_0_1_2)

/-- The per-vertex attributes of every pixel. -/
def vertexVals (p : IVec S8x1024x1024x1 32) (a : FVec F S8x20908x3x3 .f32) : FVec F S3x3x8x1024x1024 .f32 :=
  takeFill (face0 p) (tableT a)
/-- The barycentric weights, vertex axis first, zeroed on background pixels. -/
def weights (p : IVec S8x1024x1024x1 32) (b : FVec F S8x1024x1024x1x3 .f32) : FVec F S3x8x1024x1024 .f32 :=
  maskWeights (background p) (bary4 b)

/-! ## The host operations, stretch by stretch -/

/-- Operations run one list after another. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-! ### The stretches over any starting buffers -/

/-- The operations before the take, as one list. -/
abbrev prefixOps : List (HloOp τ sig (Elt F)) := hostOps0 ++ hostOps0_1 ++ hostOps0_2
/-- The operations after the take, as one list. -/
abbrev suffixOps : List (HloOp τ sig (Elt F)) := hostOps0_4 ++ hostOps0_5

/-- Contents carried to a typed reference's buffer and back are unchanged. -/
theorem ofBuf_toBuf {T : BufTy} (x : TRef sig T) (v : T.Contents (Elt F)) : x.ofBuf (x.toBuf v) = v := by
  obtain ⟨ref, rfl, hd, hu⟩ := x
  rfl

/-- A buffer's contents read at the tensor type of the value it holds. -/
abbrev rd {T : BufTy} (x : TRef sig T) (W : Valuation τ sig (Elt F)) : T.Contents (Elt F) :=
  x.ofBuf (W (Proc.devRef .tc x.ref))

theorem rd_v7 (W : Valuation τ sig (Elt F)) :
    rd (TRef.of (T := ⟨S3x3x8x1024x1024, .f32⟩) main_v7) W = W (Proc.devRef .tc main_v7) := rfl
theorem rd_v3 (W : Valuation τ sig (Elt F)) :
    rd (TRef.of (T := ⟨S8x1024x1024, .i32⟩) main_v3) W = W (Proc.devRef .tc main_v3) := rfl
theorem rd_v6 (W : Valuation τ sig (Elt F)) :
    rd (TRef.of (T := ⟨S3x3x167264, .f32⟩) main_v6) W = W (Proc.devRef .tc main_v6) := rfl

set_option maxHeartbeats 1000000 in
/-- The take stretch writes the filling take of the table in `main_v6` at the row numbers in `main_v3`. -/
theorem take_v7 (W : Valuation τ sig (Elt F)) :
    rd (TRef.of (T := ⟨S3x3x8x1024x1024, .f32⟩) main_v7) (after hostOps0_3 W)
      = takeFill (rd (TRef.of (T := ⟨S8x1024x1024, .i32⟩) main_v3) W) (rd (TRef.of (T := ⟨S3x3x167264, .f32⟩) main_v6) W) := by
  simp only [rd, hostOps0_3]
  after_results_simp
  simp only [ofBuf_toBuf]
  rfl

/-- The take stretch leaves the mask and the re-laid weights alone. -/
theorem take_v2 (W : Valuation τ sig (Elt F)) : after hostOps0_3 W (Proc.devRef .tc main_v2) = W (Proc.devRef .tc main_v2) := by
  simp only [hostOps0_3]
  after_results_simp
theorem take_v4 (W : Valuation τ sig (Elt F)) : after hostOps0_3 W (Proc.devRef .tc main_v4) = W (Proc.devRef .tc main_v4) := by
  simp only [hostOps0_3]
  after_results_simp

/-- The last stretches leave the take's result alone, -/
theorem suffix_v7 (W : Valuation τ sig (Elt F)) : after suffixOps W (Proc.devRef .tc main_v7) = W (Proc.devRef .tc main_v7) := by
  simp only [suffixOps, hostOps0_4, hostOps0_5, List.cons_append, List.nil_append]
  after_results_simp

/-- and write the masked weights from the mask in `main_v2` and the re-laid weights in `main_v4`. -/
theorem suffix_v10 (W : Valuation τ sig (Elt F)) :
    (after suffixOps W (Proc.devRef .tc main_v10) : S3x8x1024x1024.Idx → Elt F .f32)
      = maskWeights (W (Proc.devRef .tc main_v2)) (W (Proc.devRef .tc main_v4)) := by
  simp only [suffixOps, hostOps0_4, hostOps0_5, List.cons_append, List.nil_append]
  after_results_simp
  simp only [cast_eq]
  rfl

variable (m : (ℓ : Loc nD τ sig) → Buf (Elt F) ℓ)

/-- The first stretches, from the launch contents. -/
theorem prefix_v3 (c : Dev nD) : (after prefixOps (fun b => m (c, b)) (Proc.devRef .tc main_v3) : S8x1024x1024.Idx → BitVec 32)
    = face0 (m ((c : Thread nD τ).loc main_arg0)) := by
  simp only [prefixOps, hostOps0, hostOps0_1, hostOps0_2, List.cons_append, List.nil_append]
  after_results_simp
  simp only [cast_eq]
  rfl
theorem prefix_v2 (c : Dev nD) : (after prefixOps (fun b => m (c, b)) (Proc.devRef .tc main_v2) : S8x1024x1024.Idx → BitVec 1)
    = background (m ((c : Thread nD τ).loc main_arg0)) := by
  simp only [prefixOps, hostOps0, hostOps0_1, hostOps0_2, List.cons_append, List.nil_append]
  after_results_simp
  rfl
theorem prefix_v6 (c : Dev nD) : (after prefixOps (fun b => m (c, b)) (Proc.devRef .tc main_v6) : S3x3x167264.Idx → Elt F .f32)
    = tableT (m ((c : Thread nD τ).loc main_arg2)) := by
  simp only [prefixOps, hostOps0, hostOps0_1, hostOps0_2, List.cons_append, List.nil_append]
  after_results_simp
  rfl
theorem prefix_v4 (c : Dev nD) : (after prefixOps (fun b => m (c, b)) (Proc.devRef .tc main_v4) : S8x1024x1024x3.Idx → Elt F .f32)
    = bary4 (m ((c : Thread nD τ).loc main_arg1)) := by
  simp only [prefixOps, hostOps0, hostOps0_1, hostOps0_2, List.cons_append, List.nil_append]
  after_results_simp
  rfl

/-- The region is entered after the three stretches run in order. -/
theorem V_split (c : Dev nD) (b : Ref sig .tc) :
    V m c b = after suffixOps (after hostOps0_3 (after prefixOps (fun b => m (c, b)))) (Proc.devRef .tc b) := by
  have hL : List.flatten [hostOps0 (F := F), hostOps0_1, hostOps0_2, hostOps0_3, hostOps0_4, hostOps0_5]
      = prefixOps ++ (hostOps0_3 ++ suffixOps) := by
    simp only [prefixOps, suffixOps, List.flatten_cons, List.flatten_nil, List.append_nil, List.append_assoc]
  show after (List.flatten [hostOps0, hostOps0_1, hostOps0_2, hostOps0_3, hostOps0_4, hostOps0_5]) (fun b => m (c, b))
    (Proc.devRef .tc b) = _
  rw [hL, after_append, after_append]

/-- The region finds the per-vertex attributes in its first input array. -/
theorem V_vertexVals (c : Dev nD) : (V m c main_v7 : S3x3x8x1024x1024.Idx → Elt F .f32)
    = vertexVals (m ((c : Thread nD τ).loc main_arg0)) (m ((c : Thread nD τ).loc main_arg2)) := by
  rw [V_split, suffix_v7, ← rd_v7 (after hostOps0_3 (after prefixOps fun b => m (c, b))), take_v7, rd_v3, rd_v6, prefix_v3, prefix_v6]
  rfl

/-- The region finds the masked weights in its second input array. -/
theorem V_weights (c : Dev nD) : (V m c main_v10 : S3x8x1024x1024.Idx → Elt F .f32)
    = weights (m ((c : Thread nD τ).loc main_arg0)) (m ((c : Thread nD τ).loc main_arg1)) := by
  rw [V_split, suffix_v10, take_v2, take_v4, prefix_v2, prefix_v4]
  rfl

/-! ## The stages read at an index -/

/-- A scalar broadcast reads the scalar everywhere. -/
theorem bcast0 {α : Type} {t : Shape} (h : S_.BroadcastsInDim t (![] : Fin 0 → Fin t.rank)) (v : S_.Idx → α) (j : t.Idx) :
    broadcastInDim t ![] h v j = v ix0 :=
  broadcastInDim_apply _ h v j ix0 (fun a => a.elim0)

theorem faces_apply (p : IVec S8x1024x1024x1 32) (n : Fin 8) (h w : Fin 1024) :
    faces p (ix3 n h w) = p (ix4 n h w 0) := by
  have hn := n.isLt
  have hh := h.isLt
  have hw := w.isLt
  unfold faces
  exact shapeCast_apply p shapeCasts_S8x1024x1024x1_S8x1024x1024 (ix3 n h w) (ix4 n h w 0)
    (by rw [Shape.rowMajor_val_four, Shape.rowMajor_val_three]
        show ((n.val * 1024 + h.val) * 1024 + w.val) * 1 + 0 = (n.val * 1024 + h.val) * 1024 + w.val; omega)

theorem background_apply (p : IVec S8x1024x1024x1 32) (n : Fin 8) (h w : Fin 1024) :
    background p (ix3 n h w) = IntOp.cmpi .eq (p (ix4 n h w 0)) 4294967295#32 := by
  unfold background
  show IntOp.cmpi .eq (faces p (ix3 n h w))
    (broadcastInDim S8x1024x1024 ![] bcast_S_S8x1024x1024 (constantI S_ 32 4294967295#32) (ix3 n h w)) = _
  rw [faces_apply, bcast0]
  rfl

theorem face0_apply (p : IVec S8x1024x1024x1 32) (n : Fin 8) (h w : Fin 1024) :
    face0 p (ix3 n h w) = faceWord (p (ix4 n h w 0)) := by
  unfold face0
  show Scalar.select (background p (ix3 n h w))
    (broadcastInDim S8x1024x1024 ![] bcast_S_S8x1024x1024 (id (constantI S_ 32 0#32)) (ix3 n h w)) (faces p (ix3 n h w)) = _
  rw [background_apply, faces_apply, bcast0]
  rfl

theorem wrapped_apply (s : IVec S8x1024x1024 32) (n : Fin 8) (h w : Fin 1024) :
    wrapped s (ix3 n h w) = wrapWord (s (ix3 n h w)) := by
  unfold wrapped
  show Scalar.select (IntOp.cmpi .slt (s (ix3 n h w))
      (broadcastInDim S8x1024x1024 ![] bcast_S_S8x1024x1024 (constantI S_ 32 0#32) (ix3 n h w)))
    (IntOp.addi (s (ix3 n h w))
      (broadcastInDim S8x1024x1024 ![] bcast_S_S8x1024x1024 (constantI S_ 32 167264#32) (ix3 n h w)))
    (s (ix3 n h w)) = _
  rw [bcast0, bcast0]
  rfl

theorem starts_apply (s : IVec S8x1024x1024 32) (n : Fin 8) (h w : Fin 1024) (k : Fin 1) :
    starts s (ix4 n h w k) = wrapWord (s (ix3 n h w)) := by
  unfold starts
  refine (broadcastInDim_apply _ bcast_S8x1024x1024_S8x1024x1024x1_0_1_2 (wrapped s) (ix4 n h w k) (ix3 n h w)
    (fun a => match a with
      | ⟨0, _⟩ => by show n.val = if (8 : Nat) = 1 then 0 else n.val; rw [if_neg (by decide)]
      | ⟨1, _⟩ => by show h.val = if (1024 : Nat) = 1 then 0 else h.val; rw [if_neg (by decide)]
      | ⟨2, _⟩ => by show w.val = if (1024 : Nat) = 1 then 0 else w.val; rw [if_neg (by decide)])).trans ?_
  exact wrapped_apply s n h w

/-- Where the wrapped row number is in `[0, 167263]` the range test passes. -/
theorem inRange_apply (s : IVec S8x1024x1024 32) (n : Fin 8) (h w : Fin 1024) (k : Fin 1)
    (hok : IntOp.cmpi .sge (wrapWord (s (ix3 n h w))) 0#32 = 1#1 ∧ IntOp.cmpi .sle (wrapWord (s (ix3 n h w))) 167263#32 = 1#1) :
    inRange s (ix4 n h w k) = 1#1 := by
  unfold inRange
  show IntOp.andi (IntOp.cmpi .sge (starts s (ix4 n h w k))
      (broadcastInDim S8x1024x1024x1 ![] bcast_S_S8x1024x1024x1 (constantI S_ 32 0#32) (ix4 n h w k)))
    (IntOp.cmpi .sle (starts s (ix4 n h w k))
      (broadcastInDim S8x1024x1024x1 ![0, 1, 2, 3] bcast_S1x1x1x1_S8x1024x1024x1_0_1_2_3
        (broadcastInDim S1x1x1x1 ![3] bcast_S1_S1x1x1x1_3 (constantI S1 32 167263#32)) (ix4 n h w k))) = 1#1
  have hc : broadcastInDim S8x1024x1024x1 ![0, 1, 2, 3] bcast_S1x1x1x1_S8x1024x1024x1_0_1_2_3
      (broadcastInDim S1x1x1x1 ![3] bcast_S1_S1x1x1x1_3 (constantI S1 32 167263#32)) (ix4 n h w k) = 167263#32 := by
    refine (broadcastInDim_apply _ bcast_S1x1x1x1_S8x1024x1024x1_0_1_2_3 _ (ix4 n h w k) (ix4 (0 : Fin 1) (0 : Fin 1) (0 : Fin 1) (0 : Fin 1))
      (fun a => match a with
        | ⟨0, _⟩ => by show 0 = if (1 : Nat) = 1 then 0 else n.val; rw [if_pos rfl]
        | ⟨1, _⟩ => by show 0 = if (1 : Nat) = 1 then 0 else h.val; rw [if_pos rfl]
        | ⟨2, _⟩ => by show 0 = if (1 : Nat) = 1 then 0 else w.val; rw [if_pos rfl]
        | ⟨3, _⟩ => by show 0 = if (1 : Nat) = 1 then 0 else k.val; rw [if_pos rfl])).trans ?_
    exact broadcastInDim_apply _ bcast_S1_S1x1x1x1_3 (constantI S1 32 167263#32) (ix4 (0 : Fin 1) (0 : Fin 1) (0 : Fin 1) (0 : Fin 1)) (ix1 (0 : Fin 1))
      (fun a => match a with
        | ⟨0, _⟩ => by show 0 = if (1 : Nat) = 1 then 0 else 0; rw [if_pos rfl])
  rw [starts_apply, bcast0, hc]
  exact IntOp.andi_eq_one.2 hok

theorem allIn_apply (s : IVec S8x1024x1024 32)
    (hok : ∀ (n : Fin 8) (h w : Fin 1024), IntOp.cmpi .sge (wrapWord (s (ix3 n h w))) 0#32 = 1#1
      ∧ IntOp.cmpi .sle (wrapWord (s (ix3 n h w))) 167263#32 = 1#1)
    (j : S8x1024x1024.Idx) : allIn s j = 1#1 := by
  unfold allIn
  refine Idealize.ShloMosaic.RowGather.reduce_andi_of_all_one (inRange s) (constantI S_ 1 1#1)
    reducesTo_S8x1024x1024x1_S8x1024x1024_d3 h_S_ rfl (fun i => ?_) j
  obtain ⟨n, h, w, k, rfl⟩ : ∃ (n : Fin 8) (h w : Fin 1024) (k : Fin 1), i = ix4 n h w k := ⟨i 0, i 1, i 2, i 3, eq_ix4 i⟩
  exact inRange_apply s n h w k (hok n h w)

/-- Where every wrapped row number is in range, the filling take is the table at the clamped row. -/
theorem takeFill_apply (s : IVec S8x1024x1024 32) (T : FVec F S3x3x167264 .f32)
    (hok : ∀ (n : Fin 8) (h w : Fin 1024), IntOp.cmpi .sge (wrapWord (s (ix3 n h w))) 0#32 = 1#1
      ∧ IntOp.cmpi .sle (wrapWord (s (ix3 n h w))) 167263#32 = 1#1)
    (v d : Fin 3) (n : Fin 8) (h w : Fin 1024) :
    takeFill s T (ix5 v d n h w) = T (ix3 v d (Gather.clampRow (wrapWord (s (ix3 n h w))))) := by
  unfold takeFill
  show Scalar.select (broadcastInDim S3x3x8x1024x1024 ![2, 3, 4] bcast_S8x1024x1024_S3x3x8x1024x1024_2_3_4 (allIn s) (ix5 v d n h w))
    (Host.gather gather_S3x3x167264_S8x1024x1024x1_S3x3x8x1024x1024_01_2_n_n_2_3_331 T (starts s) (ix5 v d n h w))
    _ = _
  have hm : broadcastInDim S3x3x8x1024x1024 ![2, 3, 4] bcast_S8x1024x1024_S3x3x8x1024x1024_2_3_4 (allIn s) (ix5 v d n h w) = 1#1 := by
    refine (broadcastInDim_apply _ bcast_S8x1024x1024_S3x3x8x1024x1024_2_3_4 (allIn s) (ix5 v d n h w) (ix3 n h w)
      (fun a => match a with
        | ⟨0, _⟩ => by show n.val = if (8 : Nat) = 1 then 0 else n.val; rw [if_neg (by decide)]
        | ⟨1, _⟩ => by show h.val = if (1024 : Nat) = 1 then 0 else h.val; rw [if_neg (by decide)]
        | ⟨2, _⟩ => by show w.val = if (1024 : Nat) = 1 then 0 else w.val; rw [if_neg (by decide)])).trans ?_
    exact allIn_apply s hok _
  rw [hm, select_one]
  refine (Gather.gather_last_apply gather_S3x3x167264_S8x1024x1024x1_S3x3x8x1024x1024_01_2_n_n_2_3_331_wf _ _ _).trans ?_
  show T (ix3 v d (Gather.clampRow (starts s (ix4 n h w 0)))) = _
  rw [starts_apply]

theorem tableT_apply (a : FVec F S8x20908x3x3 .f32) (v d : Fin 3) (row : Fin 167264) :
    tableT a (ix3 v d row) = (shapeCast S167264x3x3 a shapeCasts_S8x20908x3x3_S167264x3x3) (ix3 row v d) := by
  unfold tableT
  exact transpose_apply [1, 2, 0] _ transposes_S167264x3x3_S3x3x167264_1_2_0 (ix3 v d row) (ix3 row v d)
    (fun b => match b with | ⟨0, _⟩ => rfl | ⟨1, _⟩ => rfl | ⟨2, _⟩ => rfl)

/-- Under the range hypothesis the per-vertex attribute at `(v, d, n, h, w)` is the flattened table at the pixel's row. -/
theorem vertexVals_apply (p : IVec S8x1024x1024x1 32) (a : FVec F S8x20908x3x3 .f32)
    (hr : ∀ i : S8x1024x1024x1.Idx, IntOp.cmpi .sge (p i) 4294800032#32 = 1#1 ∧ IntOp.cmpi .slt (p i) 167264#32 = 1#1)
    (v d : Fin 3) (n : Fin 8) (h w : Fin 1024) :
    vertexVals p a (ix5 v d n h w)
      = (shapeCast S167264x3x3 a shapeCasts_S8x20908x3x3_S167264x3x3) (ix3 (rowOf (p (ix4 n h w 0))) v d) := by
  unfold vertexVals
  rw [takeFill_apply (face0 p) (tableT a) (fun n h w => by rw [face0_apply]; exact wrap_ok _ (hr _).1 (hr _).2) v d n h w,
    face0_apply, tableT_apply]
  rfl

theorem bary4_apply (b : FVec F S8x1024x1024x1x3 .f32) (n : Fin 8) (h w : Fin 1024) (v : Fin 3) :
    bary4 b (ix4 n h w v) = b (ix5 n h w 0 v) := by
  have hn := n.isLt
  have hh := h.isLt
  have hw := w.isLt
  have hv := v.isLt
  unfold bary4
  exact shapeCast_apply b shapeCasts_S8x1024x1024x1x3_S8x1024x1024x3 (ix4 n h w v) (ix5 n h w 0 v)
    (by rw [Shape.rowMajor_val_five, Shape.rowMajor_val_four]
        show (((n.val * 1024 + h.val) * 1024 + w.val) * 1 + 0) * 3 + v.val = ((n.val * 1024 + h.val) * 1024 + w.val) * 3 + v.val
        omega)

/-- The masked weight at `(v, n, h, w)`: 0 where the mask is set, the weight elsewhere. -/
theorem maskWeights_apply (g : IVec S8x1024x1024 1) (bt : FVec Ideal S8x1024x1024x3 .f32) (v : Fin 3) (n : Fin 8) (h w : Fin 1024) :
    maskWeights (F := Ideal) g bt (ix4 v n h w) = Scalar.select (g (ix3 n h w)) (0 : EReal) (bt (ix4 n h w v)) := by
  unfold maskWeights
  show Scalar.select (broadcastInDim S3x8x1024x1024 ![0, 1, 2, 3] bcast_S1x8x1024x1024_S3x8x1024x1024_0_1_2_3
      (broadcastInDim S1x8x1024x1024 ![1, 2, 3] bcast_S8x1024x1024_S1x8x1024x1024_1_2_3 g) (ix4 v n h w))
    (broadcastInDim S3x8x1024x1024 ![] bcast_S_S3x8x1024x1024 (id (constant (F := Ideal) S_ .f32 0x00000000#32)) (ix4 v n h w))
    (transpose S3x8x1024x1024 [3, 0, 1, 2] bt transposes_S8x1024x1024x3_S3x8x1024x1024_3_0_1_2 (ix4 v n h w)) = _
  have hm : broadcastInDim S3x8x1024x1024 ![0, 1, 2, 3] bcast_S1x8x1024x1024_S3x8x1024x1024_0_1_2_3
      (broadcastInDim S1x8x1024x1024 ![1, 2, 3] bcast_S8x1024x1024_S1x8x1024x1024_1_2_3 g) (ix4 v n h w) = g (ix3 n h w) := by
    refine (broadcastInDim_apply _ bcast_S1x8x1024x1024_S3x8x1024x1024_0_1_2_3 _ (ix4 v n h w) (ix4 (0 : Fin 1) n h w)
      (fun a => match a with
        | ⟨0, _⟩ => by show 0 = if (1 : Nat) = 1 then 0 else v.val; rw [if_pos rfl]
        | ⟨1, _⟩ => by show n.val = if (8 : Nat) = 1 then 0 else n.val; rw [if_neg (by decide)]
        | ⟨2, _⟩ => by show h.val = if (1024 : Nat) = 1 then 0 else h.val; rw [if_neg (by decide)]
        | ⟨3, _⟩ => by show w.val = if (1024 : Nat) = 1 then 0 else w.val; rw [if_neg (by decide)])).trans ?_
    exact broadcastInDim_apply _ bcast_S8x1024x1024_S1x8x1024x1024_1_2_3 g (ix4 (0 : Fin 1) n h w) (ix3 n h w)
      (fun a => match a with
        | ⟨0, _⟩ => by show n.val = if (8 : Nat) = 1 then 0 else n.val; rw [if_neg (by decide)]
        | ⟨1, _⟩ => by show h.val = if (1024 : Nat) = 1 then 0 else h.val; rw [if_neg (by decide)]
        | ⟨2, _⟩ => by show w.val = if (1024 : Nat) = 1 then 0 else w.val; rw [if_neg (by decide)])
  have hb : transpose S3x8x1024x1024 [3, 0, 1, 2] bt transposes_S8x1024x1024x3_S3x8x1024x1024_3_0_1_2 (ix4 v n h w)
      = bt (ix4 n h w v) :=
    transpose_apply [3, 0, 1, 2] _ transposes_S8x1024x1024x3_S3x8x1024x1024_3_0_1_2 (ix4 v n h w) (ix4 n h w v)
      (fun b => match b with | ⟨0, _⟩ => rfl | ⟨1, _⟩ => rfl | ⟨2, _⟩ => rfl | ⟨3, _⟩ => rfl)
  rw [hm, hb, bcast0]
  show Scalar.select _ (Ideal.ofBits .f32 0x00000000#32) _ = _
  rw [Ideal.ofBits_zero_f32]

/-- The masked weight at `(v, n, h, w)`: 0 on a background pixel, the pixel's weight for vertex `v` elsewhere. -/
theorem weights_apply (p : IVec S8x1024x1024x1 32) (b : FVec Ideal S8x1024x1024x1x3 .f32) (v : Fin 3) (n : Fin 8) (h w : Fin 1024) :
    weights (F := Ideal) p b (ix4 v n h w)
      = Scalar.select (IntOp.cmpi .eq (p (ix4 n h w 0)) 4294967295#32) (0 : EReal) (b (ix5 n h w 0 v)) := by
  unfold weights
  rw [maskWeights_apply, background_apply, bary4_apply]

end Cert.Raster.KernelHost

end
-- ==== Proof.KernelValue.lean ====
/-
  From the kernel's blocks to its output array.

  The grid has 8 × 8 points; point `(I, J)` stages the attribute block `[3, 3, 1, 128, 1024]` at `(0, 0, I, J, 0)`, the weight
  block `[3, 1, 128, 1024]` at `(0, I, J, 0)` and writes the output block `[1, 3, 128, 1024]` at `(I, 0, J, 0)`. At block index
  `(0, d, r, w)` the body leaves `(W₀·X₀ + W₁·X₁) + W₂·X₂` with `W_v` the weight at `(v, 0, r, w)` and `X_v` the attribute at
  `(v, d, 0, r, w)` (`body_at`, from the generated reading of the body's one store). Through the windows these are the arrays
  at pixel `(I, J·128 + r, w)`, so every point writes back its block of ONE function `blend W X` of the two whole arrays
  (`flushed_core`, stated for any two arrays so that nothing about how the host made them is opened), the 64 blocks
  cover the image (`cover`), and the output array ends at `blend` of the two arrays the region was launched on (`final`).
-/
import proofs.«416982_j65996467470980_3_alg».proof.Proof.Gen.KernelIdeal.Value
import Idealize.ShloMosaic.Lib.Pipeline.Value
import Idealize.ShloMosaic.Lib.ValueIdx

noncomputable section

namespace Cert.Raster.KernelValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

/-- What the body leaves at block index `(0, d, r, w)`: the three weights at `(v, 0, r, w)` times the three attributes at
    `(v, d, 0, r, w)`, summed in the order the body adds them. -/
theorem body_at (x0 : Vec Ideal S3x3x1x128x1024 .f32) (x1 : Vec Ideal S3x1x128x1024 .f32)
    (z : Fin 1) (d : Fin 3) (r : Fin 128) (w : Fin 1024) :
    out0_2 x0 x1 (ix4 z d r w)
      = (x1 (ix4 (0 : Fin 3) (0 : Fin 1) r w) * x0 (ix5 (0 : Fin 3) d (0 : Fin 1) r w)
          + x1 (ix4 (1 : Fin 3) (0 : Fin 1) r w) * x0 (ix5 (1 : Fin 3) d (0 : Fin 1) r w))
        + x1 (ix4 (2 : Fin 3) (0 : Fin 1) r w) * x0 (ix5 (2 : Fin 3) d (0 : Fin 1) r w) := by
  unfold out0_2
  rw [canon2_eq]
  show (View.ld x1 r0_0 (ix2_0 (ix4 z d r w)) * View.ld x0 r0_3 (ix2_1 (ix4 z d r w))
        + View.ld x1 r0_1 (ix2_2 (ix4 z d r w)) * View.ld x0 r0_4 (ix2_3 (ix4 z d r w)))
      + View.ld x1 r0_2 (ix2_4 (ix4 z d r w)) * View.ld x0 r0_5 (ix2_5 (ix4 z d r w)) = _
  have l0 : View.ld x1 r0_0 (ix2_0 (ix4 z d r w)) = x1 (ix4 (0 : Fin 3) (0 : Fin 1) r w) := by
    show x1 (r0_0.emb (ix2_0 (ix4 z d r w))) = _
    congr 1; funext a; refine Fin.ext ?_
    match a with
    | ⟨0, _⟩ => rfl
    | ⟨1, _⟩ => rfl
    | ⟨2, _⟩ => show 0 + 1 * r.val = r.val; omega
    | ⟨3, _⟩ => show 0 + 1 * w.val = w.val; omega
  have l1 : View.ld x0 r0_3 (ix2_1 (ix4 z d r w)) = x0 (ix5 (0 : Fin 3) d (0 : Fin 1) r w) := by
    show x0 (r0_3.emb (ix2_1 (ix4 z d r w))) = _
    congr 1; funext a; refine Fin.ext ?_
    match a with
    | ⟨0, _⟩ => rfl
    | ⟨1, _⟩ => show 0 + 1 * d.val = d.val; omega
    | ⟨2, _⟩ => rfl
    | ⟨3, _⟩ => show 0 + 1 * r.val = r.val; omega
    | ⟨4, _⟩ => show 0 + 1 * w.val = w.val; omega
  have l2 : View.ld x1 r0_1 (ix2_2 (ix4 z d r w)) = x1 (ix4 (1 : Fin 3) (0 : Fin 1) r w) := by
    show x1 (r0_1.emb (ix2_2 (ix4 z d r w))) = _
    congr 1; funext a; refine Fin.ext ?_
    match a with
    | ⟨0, _⟩ => rfl
    | ⟨1, _⟩ => rfl
    | ⟨2, _⟩ => show 0 + 1 * r.val = r.val; omega
    | ⟨3, _⟩ => show 0 + 1 * w.val = w.val; omega
  have l3 : View.ld x0 r0_4 (ix2_3 (ix4 z d r w)) = x0 (ix5 (1 : Fin 3) d (0 : Fin 1) r w) := by
    show x0 (r0_4.emb (ix2_3 (ix4 z d r w))) = _
    congr 1; funext a; refine Fin.ext ?_
    match a with
    | ⟨0, _⟩ => rfl
    | ⟨1, _⟩ => show 0 + 1 * d.val = d.val; omega
    | ⟨2, _⟩ => rfl
    | ⟨3, _⟩ => show 0 + 1 * r.val = r.val; omega
    | ⟨4, _⟩ => show 0 + 1 * w.val = w.val; omega
  have l4 : View.ld x1 r0_2 (ix2_4 (ix4 z d r w)) = x1 (ix4 (2 : Fin 3) (0 : Fin 1) r w) := by
    show x1 (r0_2.emb (ix2_4 (ix4 z d r w))) = _
    congr 1; funext a; refine Fin.ext ?_
    match a with
    | ⟨0, _⟩ => rfl
    | ⟨1, _⟩ => rfl
    | ⟨2, _⟩ => show 0 + 1 * r.val = r.val; omega
    | ⟨3, _⟩ => show 0 + 1 * w.val = w.val; omega
  have l5 : View.ld x0 r0_5 (ix2_5 (ix4 z d r w)) = x0 (ix5 (2 : Fin 3) d (0 : Fin 1) r w) := by
    show x0 (r0_5.emb (ix2_5 (ix4 z d r w))) = _
    congr 1; funext a; refine Fin.ext ?_
    match a with
    | ⟨0, _⟩ => rfl
    | ⟨1, _⟩ => show 0 + 1 * d.val = d.val; omega
    | ⟨2, _⟩ => rfl
    | ⟨3, _⟩ => show 0 + 1 * r.val = r.val; omega
    | ⟨4, _⟩ => show 0 + 1 * w.val = w.val; omega
  rw [l0, l1, l2, l3, l4, l5]

variable (m : (ℓ : Loc nD τ sig) → Buf (Elt Ideal) ℓ) (ρ : Dev nD → PrngReg)

/-- The body's arithmetic at one pixel and channel, on whole arrays: weights `W[v, n, h, w]`, attributes `X[v, d, n, h, w]`. -/
def blendAt (W : FVec Ideal S3x8x1024x1024 .f32) (X : FVec Ideal S3x3x8x1024x1024 .f32) (n : Fin 8) (d : Fin 3) (h w : Fin 1024) : EReal :=
  (W (ix4 (0 : Fin 3) n h w) * X (ix5 (0 : Fin 3) d n h w) + W (ix4 (1 : Fin 3) n h w) * X (ix5 (1 : Fin 3) d n h w))
    + W (ix4 (2 : Fin 3) n h w) * X (ix5 (2 : Fin 3) d n h w)

/-- The same as an image `[n, d, h, w]`. -/
def blend (W : FVec Ideal S3x8x1024x1024 .f32) (X : FVec Ideal S3x3x8x1024x1024 .f32) : FVec Ideal S8x3x1024x1024 .f32 :=
  fun i => blendAt W X (i 0) (i 1) (i 2) (i 3)

/-- The printed index maps, decided over the 64 grid points: the output block `(I, 0, J, 0)` goes with the attribute block
    `(0, 0, I, J, 0)` and the weight block `(0, I, J, 0)`, and `I, J ≤ 7`. -/
theorem idx_facts : ∀ t : Fin cfg0.N,
    win0_0.index t (0 : Fin 5) = 0 ∧ win0_0.index t (1 : Fin 5) = 0 ∧ win0_0.index t (2 : Fin 5) = win0_2.index t (0 : Fin 4)
    ∧ win0_0.index t (3 : Fin 5) = win0_2.index t (2 : Fin 4) ∧ win0_0.index t (4 : Fin 5) = 0
    ∧ win0_1.index t (0 : Fin 4) = 0 ∧ win0_1.index t (1 : Fin 4) = win0_2.index t (0 : Fin 4)
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 7 ∧ win0_2.index t (2 : Fin 4) ≤ 7 :=
  (by decide +kernel : ∀ t : Fin grid0.N, _)

/-- Every output block `(I, 0, J, 0)` with `I, J < 8` is some point's. -/
theorem idx_onto : ∀ (q0 q2 : Fin 8), ∃ t : Fin cfg0.N, win0_2.index t = ![q0.val, 0, q2.val, 0] :=
  (by decide +kernel : ∀ (q0 q2 : Fin 8), ∃ t : Fin grid0.N, win0_2.index t = ![q0.val, 0, q2.val, 0])

/-- Where the weight block's entry `(v, 0, r, w)` sits in its array, in the coordinates of the output block's entry. -/
theorem emb_w (t : Fin cfg0.N) (v : Fin 3) (z : Fin 1) (d : Fin 3) (r : Fin 128) (w : Fin 1024) :
    ((cfg0.win 1).blk t).view.emb (ix4 v (0 : Fin 1) r w) = ix4 v ((((cfg0.win 2).blk t).view.emb (ix4 z d r w)) 0) ((((cfg0.win 2).blk t).view.emb (ix4 z d r w)) 2) ((((cfg0.win 2).blk t).view.emb (ix4 z d r w)) 3) := by
  obtain ⟨e0, e1, e2, e3, e4, f0, f1, f2, f3, g1, g3, b0, b2⟩ := idx_facts t
  have hz : z.val = 0 := by omega
  funext a; refine Fin.ext ?_
  match a with
  | ⟨0, _⟩ => show win0_1.index t (0 : Fin 4) * 3 + 1 * v.val = v.val; omega
  | ⟨1, _⟩ => show win0_1.index t (1 : Fin 4) * 1 + 1 * 0 = win0_2.index t (0 : Fin 4) * 1 + 1 * z.val; omega
  | ⟨2, _⟩ => show win0_1.index t (2 : Fin 4) * 128 + 1 * r.val = win0_2.index t (2 : Fin 4) * 128 + 1 * r.val; omega
  | ⟨3, _⟩ => show win0_1.index t (3 : Fin 4) * 1024 + 1 * w.val = win0_2.index t (3 : Fin 4) * 1024 + 1 * w.val; omega

/-- Where the attribute block's entry `(v, d, 0, r, w)` sits in its array, likewise. -/
theorem emb_x (t : Fin cfg0.N) (v : Fin 3) (z : Fin 1) (d : Fin 3) (r : Fin 128) (w : Fin 1024) :
    ((cfg0.win 0).blk t).view.emb (ix5 v d (0 : Fin 1) r w) = ix5 v ((((cfg0.win 2).blk t).view.emb (ix4 z d r w)) 1) ((((cfg0.win 2).blk t).view.emb (ix4 z d r w)) 0) ((((cfg0.win 2).blk t).view.emb (ix4 z d r w)) 2) ((((cfg0.win 2).blk t).view.emb (ix4 z d r w)) 3) := by
  obtain ⟨e0, e1, e2, e3, e4, f0, f1, f2, f3, g1, g3, b0, b2⟩ := idx_facts t
  have hz : z.val = 0 := by omega
  funext a; refine Fin.ext ?_
  match a with
  | ⟨0, _⟩ => show win0_0.index t (0 : Fin 5) * 3 + 1 * v.val = v.val; omega
  | ⟨1, _⟩ => show win0_0.index t (1 : Fin 5) * 3 + 1 * d.val = win0_2.index t (1 : Fin 4) * 3 + 1 * d.val; omega
  | ⟨2, _⟩ => show win0_0.index t (2 : Fin 5) * 1 + 1 * 0 = win0_2.index t (0 : Fin 4) * 1 + 1 * z.val; omega
  | ⟨3, _⟩ => show win0_0.index t (3 : Fin 5) * 128 + 1 * r.val = win0_2.index t (2 : Fin 4) * 128 + 1 * r.val; omega
  | ⟨4, _⟩ => show win0_0.index t (4 : Fin 5) * 1024 + 1 * w.val = win0_2.index t (3 : Fin 4) * 1024 + 1 * w.val; omega

/-- The block computation on any two arrays: what the body leaves from block `t` of the attributes `X` and of the weights
    `W`, cut to the output window, is block `t` of `blend W X`. -/
theorem flushed_core (t : Fin cfg0.N) (W : FVec Ideal S3x8x1024x1024 .f32) (X : FVec Ideal S3x3x8x1024x1024 .f32) :
    (cfg0.win 2).cut (grid0.coords t)
        (out0_2 (((cfg0.win 0).blk t).view.read (Elt Ideal) X) (((cfg0.win 1).blk t).view.read (Elt Ideal) W))
      = ((cfg0.win 2).blk t).view.read (Elt Ideal) (blend W X) := by
  funext y
  obtain ⟨z, d, r, w, rfl⟩ : ∃ (z : Fin 1) (d : Fin 3) (r : Fin 128) (w : Fin 1024), y = ix4 z d r w :=
    ⟨y 0, y 1, y 2, y 3, eq_ix4 y⟩
  show out0_2 (((cfg0.win 0).blk t).view.read (Elt Ideal) X) (((cfg0.win 1).blk t).view.read (Elt Ideal) W) (ix4 z d r w)
    = blend W X (((cfg0.win 2).blk t).view.emb (ix4 z d r w))
  refine (body_at _ _ z d r w).trans ?_
  show (W (((cfg0.win 1).blk t).view.emb (ix4 (0 : Fin 3) (0 : Fin 1) r w))
        * X (((cfg0.win 0).blk t).view.emb (ix5 (0 : Fin 3) d (0 : Fin 1) r w))
      + W (((cfg0.win 1).blk t).view.emb (ix4 (1 : Fin 3) (0 : Fin 1) r w))
        * X (((cfg0.win 0).blk t).view.emb (ix5 (1 : Fin 3) d (0 : Fin 1) r w)))
      + W (((cfg0.win 1).blk t).view.emb (ix4 (2 : Fin 3) (0 : Fin 1) r w))
        * X (((cfg0.win 0).blk t).view.emb (ix5 (2 : Fin 3) d (0 : Fin 1) r w)) = _
  rw [emb_w t 0 z d r w, emb_w t 1 z d r w, emb_w t 2 z d r w, emb_x t 0 z d r w, emb_x t 1 z d r w, emb_x t 2 z d r w]
  rfl

/-- What point `t` writes back is block `t` of `blend` of the two input arrays as the region finds them. -/
theorem flushed_eq (c : Dev nD) (t : Fin cfg0.N) :
    (dats m 0 c).flushed 2 t = ((cfg0.win 2).blk t).view.read (Elt Ideal) (blend (V m c main_v10) (V m c main_v7)) := by
  rw [flushed2]
  exact flushed_core t (V m c main_v10) (V m c main_v7)

/-- An index of the image is in point `t`'s block iff each coordinate is in the block's range on its axis. -/
theorem mem_blk (t : Fin cfg0.N) (i : S8x3x1024x1024.Idx) :
    i ∈ ((cfg0.win 2).blk t).view.set ↔ ∀ a : Fin 4, win0_2.index t a * S1x3x128x1024.size a ≤ (i a).val
      ∧ (i a).val < win0_2.index t a * S1x3x128x1024.size a + S1x3x128x1024.size a := by
  show i ∈ ((View.whole main_v11).slice (win0_2.rect t)).set ↔ _
  rw [View.set_slice_whole, Rect.mem_set_unit]
  exact Iff.rfl

/-- The 64 blocks cover the image: pixel row `h` of image `n` is in block `(n, 0, h / 128, 0)`. -/
theorem cover (i : S8x3x1024x1024.Idx) : ∃ t : Fin cfg0.N, (cfg0.win 2).flush t = true ∧ i ∈ ((cfg0.win 2).blk t).view.set := by
  have hi0 : (i 0).val < 8 := (i 0).isLt
  have hi1 : (i 1).val < 3 := (i 1).isLt
  have hi2 : (i 2).val < 1024 := (i 2).isLt
  have hi3 : (i 3).val < 1024 := (i 3).isLt
  obtain ⟨t, ht⟩ := idx_onto ⟨(i 0).val, hi0⟩ ⟨(i 2).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 128 ≤ (i 2).val ∧ (i 2).val < win0_2.index t (2 : Fin 4) * 128 + 128; omega
  | ⟨3, _⟩ => show win0_2.index t (3 : Fin 4) * 1024 ≤ (i 3).val ∧ (i 3).val < win0_2.index t (3 : Fin 4) * 1024 + 1024; omega

/-- The output array after the run is `blend` of the two input arrays as the region finds them. -/
theorem final (c : Dev nD) : (dats m 0 c).arrAt 2 cfg0.N = blend (V m c main_v10) (V m c main_v7) :=
  (dats m 0 c).arrAt_eq_of_cover 2 (blend (V m c main_v10) (V m c main_v7)) (fun t _ => flushed_eq m c t) cover

end Cert.Raster.KernelValue

end
-- ==== Proof.Bridge.lean ====
/-
  The kernel's arithmetic on its two host-side arrays is the image.

  At pixel `(n, h, w)` and channel `d` the body adds `W[v, n, h, w] · X[v, d, n, h, w]` over the three vertices, where `W` is the
  weight with background pixels zeroed and `X` is the attribute table read at the pixel's row (the range test of the filling
  take passes for face numbers in `[-167264, 167264)`). On a background pixel every weight is 0, and `0 · x = 0` for every
  extended real, so the sum is 0, which is what the reference selects there. Elsewhere the three products are the terms of
  the reference's sum over the vertex axis, added to the initial value 0.
-/
import proofs.«416982_j65996467470980_3_alg».proof.Proof.KernelHost
import proofs.«416982_j65996467470980_3_alg».proof.Proof.KernelValue
import proofs.«416982_j65996467470980_3_alg».proof.Proof.Face

noncomputable section

open scoped BigOperators

namespace Cert.Raster.Bridge

open Cert.KernelIdeal Cert.KernelIdeal.Gen
open Idealize.ShloMosaic Idealize.ShloMosaic.ValueIdx Cert.Raster

theorem blend_eq_image (p : IVec S8x1024x1024x1 32) (b : FVec Ideal S8x1024x1024x1x3 .f32) (a : FVec Ideal S8x20908x3x3 .f32)
    (hr : ∀ i : S8x1024x1024x1.Idx, IntOp.cmpi .sge (p i) 4294800032#32 = 1#1 ∧ IntOp.cmpi .slt (p i) 167264#32 = 1#1) :
    KernelValue.blend (KernelHost.weights (F := Ideal) p b) (KernelHost.vertexVals (F := Ideal) p a)
      = image p b (shapeCast S167264x3x3 a shapeCasts_S8x20908x3x3_S167264x3x3) := by
  funext j
  obtain ⟨n, d, h, w, rfl⟩ : ∃ (n : Fin 8) (d : Fin 3) (h w : Fin 1024), j = ix4 n d h w := ⟨j 0, j 1, j 2, j 3, eq_ix4 j⟩
  show KernelValue.blendAt (KernelHost.weights (F := Ideal) p b) (KernelHost.vertexVals (F := Ideal) p a) n d h w
    = Scalar.select (IntOp.cmpi .eq (p (ix4 n h w 0)) 4294967295#32) (0 : EReal)
      ((0 : EReal) + ∑ v : Fin 3, b (ix5 n h w 0 v)
        * (shapeCast S167264x3x3 a shapeCasts_S8x20908x3x3_S167264x3x3) (ix3 (rowOf (p (ix4 n h w 0))) v d))
  unfold KernelValue.blendAt
  rw [KernelHost.weights_apply p b 0 n h w, KernelHost.weights_apply p b 1 n h w, KernelHost.weights_apply p b 2 n h w,
    KernelHost.vertexVals_apply p a hr 0 d n h w, KernelHost.vertexVals_apply p a hr 1 d n h w,
    KernelHost.vertexVals_apply p a hr 2 d n h w]
  by_cases hq : IntOp.cmpi .eq (p (ix4 n h w 0)) 4294967295#32 = 1#1
  · rw [hq]
    simp only [select_one]
    rw [zero_mul, zero_mul, zero_mul, add_zero, add_zero]
  · rw [eq_zero_of_ne_one hq]
    simp only [select_zero]
    rw [Fin.sum_univ_three, zero_add]

end Cert.Raster.Bridge

end
-- ==== Proof.lean ====
/-
  The certificate of the barycentric rasteriser.

  The kernel multiplies, per pixel, three barycentric weights (zeroed on background pixels) with the three vertex rows of
  the attribute table that the pixel's face number selects, and adds the products; the reference gathers the same rows,
  multiplies, sums over the vertex axis and writes 0 on background pixels. The two gathers differ only outside the table:
  the kernel's take fills with a junk value where the (once wrapped) row number is out of range, the reference's indexing
  clamps. Under the precondition — every face number in `[-167264, 167264)`, the range in which numpy-style indexing of the
  167264 rows is defined — the wrapped row number is in range, so both read the same row, and both programs end at
  `Cert.Raster.image` of the arguments. Finiteness of the float inputs is not used: `0 · x = 0` and the commutative,
  associative sum hold on all extended reals.

  The three frames are the generated ones (the reference's is its generated run with the result dropped); the idealization
  rewrote nothing, so `preserves` is trivial.
-/
import proofs.«416982_j65996467470980_3_alg».proof.Defs
import proofs.«416982_j65996467470980_3_alg».proof.Proof.Gen.Kernel
import proofs.«416982_j65996467470980_3_alg».proof.Proof.Gen.Kernel.Skeleton
import proofs.«416982_j65996467470980_3_alg».proof.Proof.Gen.Kernel.Launch
import proofs.«416982_j65996467470980_3_alg».proof.Proof.Gen.Kernel.Points
import proofs.«416982_j65996467470980_3_alg».proof.Proof.Gen.Kernel.Frame
import proofs.«416982_j65996467470980_3_alg».proof.Proof.Gen.KernelIdeal
import proofs.«416982_j65996467470980_3_alg».proof.Proof.Gen.KernelIdeal.Skeleton
import proofs.«416982_j65996467470980_3_alg».proof.Proof.Gen.KernelIdeal.Launch
import proofs.«416982_j65996467470980_3_alg».proof.Proof.Gen.KernelIdeal.Points
import proofs.«416982_j65996467470980_3_alg».proof.Proof.Gen.KernelIdeal.Frame
import proofs.«416982_j65996467470980_3_alg».proof.Proof.Gen.ReferenceIdeal
import proofs.«416982_j65996467470980_3_alg».proof.Proof.Gen.Pre_finite_inputs
import proofs.«416982_j65996467470980_3_alg».proof.Proof.Gen.KernelIdeal.Value
import proofs.«416982_j65996467470980_3_alg».proof.Proof.Gen.ReferenceIdeal.Run
import proofs.«416982_j65996467470980_3_alg».proof.Proof.Gen.ReferenceIdeal.Read
import proofs.«416982_j65996467470980_3_alg».proof.Proof.PreRange
import proofs.«416982_j65996467470980_3_alg».proof.Proof.RefValue
import proofs.«416982_j65996467470980_3_alg».proof.Proof.KernelHost
import proofs.«416982_j65996467470980_3_alg».proof.Proof.KernelValue
import proofs.«416982_j65996467470980_3_alg».proof.Proof.Bridge
import Idealize.ShloMosaic.Adequacy
import Idealize.ShloMosaic.Init

noncomputable section

namespace Cert.Proof

open Idealize.ShloMosaic Idealize.ShloMosaic.TcCoe Idealize.SL.Sem

/-- The image of a memory's three argument arrays (the attribute table flattened to rows). -/
def imageOf (m : (ℓ : Loc Cert.KernelIdeal.nD Cert.KernelIdeal.τ Cert.KernelIdeal.sig) → Buf (Elt Ideal) ℓ)
    (c : Dev Cert.KernelIdeal.nD) : Cert.Raster.SOut.Idx → EReal :=
  Cert.Raster.image (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (shapeCast Cert.KernelIdeal.S167264x3x3 (m ((c.tc : Thread Cert.KernelIdeal.nD Cert.KernelIdeal.τ).loc Cert.KernelIdeal.main_arg2))
      Cert.KernelIdeal.Gen.shapeCasts_S8x20908x3x3_S167264x3x3)

/-- Under the precondition the kernel's output array ends at the image of its arguments. -/
theorem kernel_image (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (Cert.KernelIdeal.Gen.dats m 0 c).arrAt 2 Cert.KernelIdeal.cfg0.N = imageOf m c := by
  rw [Cert.Raster.KernelValue.final m c]
  show Cert.Raster.KernelValue.blend (Cert.KernelIdeal.Gen.V m c Cert.KernelIdeal.main_v10 : Cert.KernelIdeal.S3x8x1024x1024.Idx → EReal)
    (Cert.KernelIdeal.Gen.V m c Cert.KernelIdeal.main_v7 : Cert.KernelIdeal.S3x3x8x1024x1024.Idx → EReal) = _
  rw [Cert.Raster.KernelHost.V_weights m c, Cert.Raster.KernelHost.V_vertexVals m c]
  exact Cert.Raster.Bridge.blend_eq_image _ _ _ (Cert.Raster.PreRange.range_of_pre _ _ _ (hpre c))

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono (fun _ h c => (h c).2)
      (Cert.ReferenceIdeal.Value.run (F := Ideal) m ρ)
  · intro m ρ m' ρ' hpre hagree
    refine ⟨fun c => imageOf m c, ?_, ?_⟩
    · exact (θ_run Cert.KernelIdeal.defs _ _).mono (fun r h c => ⟨(h c).1.trans (kernel_image m hpre c), (h c).2⟩)
        (Cert.KernelIdeal.Value.run_blocks m ρ)
    · refine (θ_run Cert.ReferenceIdeal.defs _ _).mono (fun _ h c => ⟨(h c).1.trans ?_, (h c).2⟩)
        (Cert.ReferenceIdeal.Value.run (F := Ideal) m' ρ')
      rw [Cert.ReferenceIdeal.Read.val_main_v25_eq, Cert.Raster.RefValue.ref_image, (hagree c).1, (hagree c).2.1, (hagree c).2.2]
      rfl⟩

end Cert.Proof

end
